-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S2000000x32 : S_.BroadcastsInDim S2000000x32 (![] : Fin 0 → Fin S2000000x32.rank)
  reducesTo_S2000000x32_S_d0_1 : S2000000x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_

variable [Facts]

def fn_part4 {F : FTy → Type} [FloatOps F] (main_arg15 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg12 : FVec F S32x96 .f32) (main_arg13 : FVec F S32 .f32) (main_arg14 : FVec F S32x32 .f32) (main_arg15 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x96 .f32 := Host.absf main_arg12
  let main_cst_20 : FVec F S_ .f32 := constant S_ .f32 0x7F800000#32
  let main_v55 : FVec F S32x96 .f32 := broadcastInDim S32x96 ![] bcast_S_S32x96 main_cst_20
  let main_v56 : IVec S32x96 1 := cmpf .olt main_v54 main_v55
  let main_c_21 : IVec S_ 1 := constantI S_ 1 1#1
  let main_v57 : IVec S_ 1 := (fun x v => Host.reduce IntOp.andi x v reducesTo_S32x96_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_v63 main_v67

def fn_part2 {F : FTy → Type} [FloatOps F] (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x32 .f32) (main_arg1 : FVec F S100000x32 .f32) (main_arg2 : FVec F S2000000x32 .f32) (main_arg3 : IVec S2x2000000 32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x96 .f32) (main_arg13 : FVec F S32 .f32) (main_arg14 : FVec F S32x32 .f32) (main_arg15 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S2000000x32 .f32 := Host.absf main_arg2
  let main_cst_2 : FVec F S_ .f32 := constant S_ .f32 0x7F800000#32
  let main_v10 : FVec F S2000000x32 .f32 := broadcastInDim S2000000x32 ![] bcast_S_S2000000x32 main_cst_2
  let main_v11 : IVec S2000000x32 1 := cmpf .olt main_v9 main_v10
  let main_c_3 : IVec S_ 1 := constantI S_ 1 1#1
  let main_v12 : IVec S_ 1 := (fun x v => Host.reduce IntOp.andi x v reducesTo_S2000000x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S1x32 : Shape := ⟨2, ![1, 32]⟩
abbrev S10000x32 : Shape := ⟨2, ![10000, 32]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S10000x96 : Shape := ⟨2, ![10000, 96]⟩
abbrev S96x32 : Shape := ⟨2, ![96, 32]⟩

abbrev nBuf : Space → Nat
  | .hbm => 47
  | .vmem => 28
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2000000x32, .f32⟩
  | .hbm, ⟨3, _⟩ => ⟨S2x2000000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x96, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S1x32, .f32⟩
  | .hbm, ⟨17, _⟩ => ⟨S1x32, .f32⟩
  | .hbm, ⟨18, _⟩ => ⟨S100000x32, .f32⟩
  | .hbm, ⟨19, _⟩ => ⟨S1x32, .f32⟩
  | .hbm, ⟨20, _⟩ => ⟨S1x32, .f32⟩
  | .hbm, ⟨21, _⟩ => ⟨S100000x32, .f32⟩
  | .hbm, ⟨22, _⟩ => ⟨S1x2000000, .i32⟩
  | .hbm, ⟨23, _⟩ => ⟨S2000000, .i32⟩
  | .hbm, ⟨24, _⟩ => ⟨S1x2000000, .i32⟩
  | .hbm, ⟨25, _⟩ => ⟨S2000000, .i32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x32, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000x32, .f32⟩
  | .hbm, ⟨44, _⟩ => ⟨S1x32, .f32⟩
  | .hbm, ⟨45, _⟩ => ⟨S1x32, .f32⟩
  | .hbm, ⟨46, _⟩ => ⟨S2000000x32, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S32x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x96, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S10000x32_S10000x32 : S10000x32.ShapeCasts S10000x32
  concatenates_S10000x32_S10000x32_S10000x32_S10000x96_d1 : Shape.Concatenates [S10000x32, S10000x32, S10000x32] S10000x96 1
  inb_S32x96_S32x96_0_0 : ∀ a, (![0, 0] : Fin 2 → Nat) a + S32x96.size a ≤ S32x96.size a
  h_S32x96 : 0 < S32x96.numel
  transposes_S32x96_p1_0_S96x32 : S32x96.Transposes [1, 0] S96x32
  dot_S10000x32_S32x32_S10000x32_1_0_0_1_n_n_wf : DotDims.WF S10000x32 S32x32 S10000x32 [1] [0] [0] [1] [] []
  gather_S100000x32_S2000000x1_S2000000x32_1_0_n_n_0_1_132_wf : GatherDims.WF S100000x32 S2000000x1 S2000000x32 [1] [0] [] [0] [] 1 ![1, 32]
  dot_S10000x96_S96x32_S10000x32_1_0_0_1_n_n_wf : DotDims.WF S10000x96 S96x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S2000000x32.size a
  hwx2_0 : ∀ i : grid2.Coords, EltTy.bits .f32 = 32 ∨ (Rect.block (s := S2000000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S2000000x32.size a
  hwx2_1 : ∀ i : grid2.Coords, EltTy.bits .f32 = 32 ∨ (Rect.block (s := S2000000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S2000000x32.size a
  hwx2_2 : ∀ i : grid2.Coords, EltTy.bits .f32 = 32 ∨ (Rect.block (s := S2000000x32) S10000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x96.size a ≤ S32x96.size a
  hwx2_3 : ∀ i : grid2.Coords, EltTy.bits .f32 = 32 ∨ (Rect.block (s := S32x96) S32x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x32.size a ≤ S2000000x32.size a
  hwx2_7 : ∀ i : grid2.Coords, EltTy.bits .f32 = 32 ∨ (Rect.block (s := S2000000x32) S10000x32.size (cc2_transform_7 i) (hinb2_7 i)).WholeWords (EltTy.packing .f32)

variable [Facts₀]

def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S10000x96_S96x32_S10000x32_1_0_0_1_n_n : DotDims S10000x96 S96x32 S10000x32 where
  lhsContracting := [1]
  rhsContracting := [0]
  lhsNonContracting := [0]
  rhsNonContracting := [1]
  lhsBatch := []
  rhsBatch := []
  wf := dot_S10000x96_S96x32_S10000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg2) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S10000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S10000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x32 : Shape := ⟨2, ![100000, 32]⟩
abbrev S2000000x32 : Shape := ⟨2, ![2000000, 32]⟩
abbrev S2x2000000 : Shape := ⟨2, ![2, 2000000]⟩
abbrev S32x32 : Shape := ⟨2, ![32, 32]⟩
abbrev S32 : Shape := ⟨1, ![32]⟩
abbrev S32x96 : Shape := ⟨2, ![32, 96]⟩
abbrev S1x32 : Shape := ⟨2, ![1, 32]⟩
abbrev S_ : Shape := ⟨0, ![]⟩
abbrev S1x2000000 : Shape := ⟨2, ![1, 2000000]⟩
abbrev S2000000 : Shape := ⟨1, ![2000000]⟩
abbrev S2000000x1 : Shape := ⟨2, ![2000000, 1]⟩
abbrev S2000000x96 : Shape := ⟨2, ![2000000, 96]⟩
abbrev S96x32 : Shape := ⟨2, ![96, 32]⟩

abbrev nBuf : Space → Nat
  | .hbm => 84
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x32, .f32⟩
  | .hbm, ⟨2, _⟩ => ⟨S2000000x32, .f32⟩
  | .hbm, ⟨3, _⟩ => ⟨S2x2000000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x96, .f32⟩
  | .hbm, ⟨13, _⟩ => ⟨S32, .f32⟩
  | .hbm, ⟨14, _⟩ => ⟨S32x32, .f32⟩
  | .hbm, ⟨15, _⟩ => ⟨S32, .f32⟩
  | .hbm, ⟨16, _⟩ => ⟨S32x32, .f32⟩
  | .hbm, ⟨17, _⟩ => ⟨S100000x32, .f32⟩
  | .hbm, ⟨18, _⟩ => ⟨S1x32, .f32⟩
  | .hbm, ⟨19, _⟩ => ⟨S100000x32, .f32⟩
  | .hbm, ⟨20, _⟩ => ⟨S100000x32, .f32⟩
  | .hbm, ⟨21, _⟩ => ⟨S_, .f32⟩
  | .hbm, ⟨22, _⟩ => ⟨S100000x32, .f32⟩
  | .hbm, ⟨23, _⟩ => ⟨S100000x32, .f32⟩
  | .hbm, ⟨24, _⟩ => ⟨S32x32, .f32⟩
  | .hbm, ⟨25, _⟩ => ⟨S100000x32, .f32⟩
  | .hbm, ⟨26, _⟩ => ⟨S1x32, .f32⟩
  | .hbm, ⟨27, _⟩ => ⟨S100000x32, .f32⟩
  | .hbm, ⟨28, _⟩ => ⟨S100000x32, .f32⟩
  | .hbm, ⟨29, _⟩ => ⟨S_, .f32⟩
  | .hbm, ⟨30, _⟩ => ⟨S100000x32, .f32⟩
  | .hbm, ⟨31, _⟩ => ⟨S100000x32, .f32⟩
  | .hbm, ⟨32, _⟩ => ⟨S32x32, .f32⟩
  | .hbm, ⟨33, _⟩ => ⟨S100000x32, .f32⟩
  | .hbm, ⟨34, _⟩ => ⟨S1x32, .f32⟩
  | .hbm, ⟨35, _⟩ => ⟨S100000x32, .f32⟩
  | .hbm, ⟨36, _⟩ => ⟨S100000x32, .f32⟩
  | .hbm, ⟨37, _⟩ => ⟨S_, .f32⟩
  | .hbm, ⟨38, _⟩ => ⟨S100000x32, .f32⟩
  | .hbm, ⟨39, _⟩ => ⟨S100000x32, .f32⟩
  | .hbm, ⟨40, _⟩ => ⟨S32x32, .f32⟩
  | .hbm, ⟨41, _⟩ => ⟨S100000x32, .f32⟩
  | .hbm, ⟨42, _⟩ => ⟨S1x32, .f32⟩
  | .hbm, ⟨43, _⟩ => ⟨S100000x32, .f32⟩
  | .hbm, ⟨44, _⟩ => ⟨S100000x32, .f32⟩
  | .hbm, ⟨45, _⟩ => ⟨S_, .f32⟩
  | .hbm, ⟨46, _⟩ => ⟨S100000x32, .f32⟩
  | .hbm, ⟨47, _⟩ => ⟨S100000x32, .f32⟩
  | .hbm, ⟨48, _⟩ => ⟨S1x2000000, .i32⟩
  | .hbm, ⟨49, _⟩ => ⟨S2000000, .i32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S2000000x1, .i32⟩
  | .hbm, ⟨58, _⟩ => ⟨S2000000x32, .f32⟩
  | .hbm, ⟨59, _⟩ => ⟨S1x2000000, .i32⟩
  | .hbm, ⟨60, _⟩ => ⟨S2000000, .i32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S2000000x32, .f32⟩
  | .hbm, ⟨70, _⟩ => ⟨S2000000x96, .f32⟩
  | .hbm, ⟨71, _⟩ => ⟨S96x32, .f32⟩
  | .hbm, ⟨72, _⟩ => ⟨S2000000x32, .f32⟩
  | .hbm, ⟨73, _⟩ => ⟨S1x32, .f32⟩
  | .hbm, ⟨74, _⟩ => ⟨S2000000x32, .f32⟩
  | .hbm, ⟨75, _⟩ => ⟨S2000000x32, .f32⟩
  | .hbm, ⟨76, _⟩ => ⟨S_, .f32⟩
  | .hbm, ⟨77, _⟩ => ⟨S2000000x32, .f32⟩
  | .hbm, ⟨78, _⟩ => ⟨S2000000x32, .f32⟩
  | .hbm, ⟨79, _⟩ => ⟨S32x32, .f32⟩
  | .hbm, ⟨80, _⟩ => ⟨S2000000x32, .f32⟩
  | .hbm, ⟨81, _⟩ => ⟨S1x32, .f32⟩
  | .hbm, ⟨82, _⟩ => ⟨S2000000x32, .f32⟩
  | .hbm, ⟨83, _⟩ => ⟨S2000000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_cst : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call2_cst : Ref sig .tc := ⟨.hbm, 37, rfl⟩
abbrev main_call2_v0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call3_cst : Ref sig .tc := ⟨.hbm, 45, rfl⟩
abbrev main_call3_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_0 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_1 : Ref sig .tc := ⟨.hbm, 61, rfl⟩
abbrev main_v35 : Ref sig .tc := ⟨.hbm, 62, rfl⟩
abbrev main_v36 : Ref sig .tc := ⟨.hbm, 63, rfl⟩
abbrev main_c_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call4_cst : Ref sig .tc := ⟨.hbm, 76, rfl⟩
abbrev main_call4_v0 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  transposes_S32x32_S32x32_1_0 : S32x32.Transposes [1, 0] S32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  concatenates_S2000000x32_S2000000x32_S2000000x32_S2000000x96_d1 : Shape.Concatenates [S2000000x32, S2000000x32, S2000000x32] S2000000x96 1
  transposes_S32x96_S96x32_1_0 : S32x96.Transposes [1, 0] S96x32
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  dot_S100000x32_S32x32_S100000x32_1_0_0_1_n_n_wf : DotDims.WF S100000x32 S32x32 S100000x32 [1] [0] [0] [1] [] []
  gather_S100000x32_S2000000x1_S2000000x32_1_0_n_n_0_1_132_wf : GatherDims.WF S100000x32 S2000000x1 S2000000x32 [1] [0] [] [0] [] 1 ![1, 32]
  dot_S2000000x96_S96x32_S2000000x32_1_0_0_1_n_n_wf : DotDims.WF S2000000x96 S96x32 S2000000x32 [1] [0] [0] [1] [] []
  dot_S2000000x32_S32x32_S2000000x32_1_0_0_1_n_n_wf : DotDims.WF S2000000x32 S32x32 S2000000x32 [1] [0] [0] [1] [] []

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def dot_S2000000x96_S96x32_S2000000x32_1_0_0_1_n_n : DotDims S2000000x96 S96x32 S2000000x32 where
  lhsContracting := [1]
  rhsContracting := [0]
  lhsNonContracting := [0]
  rhsNonContracting := [1]
  lhsBatch := []
  rhsBatch := []
  wf := dot_S2000000x96_S96x32_S2000000x32_1_0_0_1_n_n_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Dense.lean ====
/-
  One dense layer read at an entry, over the extended reals.

  A layer takes a matrix x (rows × K), a weight matrix W stored output-major (C × K) and a bias β (one number per
  output column) to the matrix whose entry (r, c) is  Σ_k x(r, k) · W(c, k) + β(c).  The vector unit computes it as
  a product of x with the transposed weights into a zero accumulator, plus the bias row spread down the rows; the
  host computes it as a general product with the transposed weights, plus the bias broadcast in two steps. Both are
  the same sum at every entry. A rectified layer takes the larger of that and the zero pattern's value.

  Also here: three matrices of equal height set side by side, read at an entry, and the functions the two
  multi-layer perceptrons of this program compute, entry by entry.
-/
import Idealize.ShloMosaic.PureOps.Ideal
import Idealize.ShloMosaic.PureOps.Ideal.Laws
import Idealize.ShloMosaic.Lib.ValueIdx
import Idealize.ShloMosaic.Lib.Pipeline.Value
import proofs.«164511_j979252543696_1_alg».proof.Proof.LibDot

noncomputable section

open scoped BigOperators

namespace Cert.Dense

open Idealize.ShloMosaic Idealize.ShloMosaic.ValueIdx

/-! ## The specification: entries as functions of coordinates -/

/-- The value of the all-zero pattern (kept as the pattern: both programs use the same one). -/
def zeroVal : EReal := Ideal.ofBits .f32 0x00000000#32

/-- Rectification: the larger of a value and the zero pattern's value. -/
def relu (v : EReal) : EReal := max v zeroVal

/-- One layer at entry (r, c): the row of x against row c of the weights, plus the bias of column c. -/
def dense {R K C : Nat} (x : Fin R → Fin K → EReal) (W : Fin C → Fin K → EReal) (β : Fin C → EReal)
    (r : Fin R) (c : Fin C) : EReal :=
  (∑ k : Fin K, x r k * W c k) + β c

/-- A matrix as a function of its two coordinates. -/
abbrev co {R C : Nat} {φ : FTy} (x : FVec Ideal (⟨2, ![R, C]⟩ : Shape) φ) : Fin R → Fin C → EReal :=
  fun r c => x (ix2 r c)

/-- Three matrices with 32 columns side by side: entry (r, k) of the 96-column result. -/
def cat3 {R : Nat} (a b c : Fin R → Fin 32 → EReal) (r : Fin R) (k : Fin 96) : EReal :=
  if h : k.val < 32 then a r ⟨k.val, h⟩
  else if h' : k.val < 64 then b r ⟨k.val - 32, by omega⟩
  else c r ⟨k.val - 64, by have := k.isLt; omega⟩

/-- The node perceptron at entry (r, c): two rectified layers. -/
def nodeVal {R : Nat} (x : Fin R → Fin 32 → EReal) (W1 : Fin 32 → Fin 32 → EReal) (β1 : Fin 32 → EReal)
    (W2 : Fin 32 → Fin 32 → EReal) (β2 : Fin 32 → EReal) (r : Fin R) (c : Fin 32) : EReal :=
  relu (dense (fun r' k => relu (dense x W1 β1 r' k)) W2 β2 r c)

/-- The edge perceptron at entry (r, c): a rectified layer over the three joined inputs, then a plain layer. -/
def edgeVal {R : Nat} (e vg cg : Fin R → Fin 32 → EReal) (W1 : Fin 32 → Fin 96 → EReal) (β1 : Fin 32 → EReal)
    (W2 : Fin 32 → Fin 32 → EReal) (β2 : Fin 32 → EReal) (r : Fin R) (c : Fin 32) : EReal :=
  dense (fun r' k => relu (dense (cat3 e vg cg) W1 β1 r' k)) W2 β2 r c

/-- The node perceptron depends on x only through the row it is read at. -/
theorem nodeVal_row {R R' : Nat} (x : Fin R → Fin 32 → EReal) (x' : Fin R' → Fin 32 → EReal)
    (W1 : Fin 32 → Fin 32 → EReal) (β1 : Fin 32 → EReal) (W2 : Fin 32 → Fin 32 → EReal) (β2 : Fin 32 → EReal)
    (r : Fin R) (r' : Fin R') (h : ∀ k, x r k = x' r' k) (c : Fin 32) :
    nodeVal x W1 β1 W2 β2 r c = nodeVal x' W1 β1 W2 β2 r' c := by
  unfold nodeVal dense
  simp only [h]

/-- The edge perceptron depends on its three inputs only through the row it is read at. -/
theorem edgeVal_row {R R' : Nat} (e vg cg : Fin R → Fin 32 → EReal) (e' vg' cg' : Fin R' → Fin 32 → EReal)
    (W1 : Fin 32 → Fin 96 → EReal) (β1 : Fin 32 → EReal) (W2 : Fin 32 → Fin 32 → EReal) (β2 : Fin 32 → EReal)
    (r : Fin R) (r' : Fin R') (he : ∀ k, e r k = e' r' k) (hv : ∀ k, vg r k = vg' r' k) (hc : ∀ k, cg r k = cg' r' k)
    (c : Fin 32) :
    edgeVal e vg cg W1 β1 W2 β2 r c = edgeVal e' vg' cg' W1 β1 W2 β2 r' c := by
  unfold edgeVal dense cat3
  simp only [he, hv, hc]

/-- The node perceptron's whole result: one number per index of an R × 32 array. -/
def nodeArr {R : Nat} (x : Fin R → Fin 32 → EReal) (W1 : Fin 32 → Fin 32 → EReal) (β1 : Fin 32 → EReal)
    (W2 : Fin 32 → Fin 32 → EReal) (β2 : Fin 32 → EReal) : (⟨2, ![R, 32]⟩ : Shape).Idx → EReal :=
  fun i => nodeVal x W1 β1 W2 β2 (i 0) (i 1)

/-- The edge perceptron's whole result. -/
def edgeArr {R : Nat} (e vg cg : Fin R → Fin 32 → EReal) (W1 : Fin 32 → Fin 96 → EReal) (β1 : Fin 32 → EReal)
    (W2 : Fin 32 → Fin 32 → EReal) (β2 : Fin 32 → EReal) : (⟨2, ![R, 32]⟩ : Shape).Idx → EReal :=
  fun i => edgeVal e vg cg W1 β1 W2 β2 (i 0) (i 1)

/-! ## Layout operations at an entry -/

/-- A transposed matrix at entry (k, c) is the matrix at (c, k). -/
theorem transpose_at {C K : Nat} {φ : FTy} (W : FVec Ideal (⟨2, ![C, K]⟩ : Shape) φ)
    (h : (⟨2, ![C, K]⟩ : Shape).Transposes [1, 0] (⟨2, ![K, C]⟩ : Shape)) (k : Fin K) (c : Fin C) :
    transpose (⟨2, ![K, C]⟩ : Shape) [1, 0] W h (ix2 k c) = W (ix2 c k) :=
  transpose_apply [1, 0] W h (ix2 k c) (ix2 c k) (fun b => match b with
    | ⟨0, _⟩ => rfl
    | ⟨1, _⟩ => rfl)

/-- A bias row spread down R rows, at entry (r, c): the row's entry c. -/
theorem rowBroadcast_at {R : Nat} (b : FVec Ideal (⟨2, ![1, 32]⟩ : Shape) .f32)
    (h : (⟨2, ![1, 32]⟩ : Shape).Broadcasts (⟨2, ![R, 32]⟩ : Shape)) (r : Fin R) (c : Fin 32) :
    broadcastTo (⟨2, ![R, 32]⟩ : Shape) b h (ix2 r c) = b (ix2 0 c) :=
  broadcastTo_apply b h (ix2 r c) (ix2 0 c) (fun a => match a with
    | ⟨0, _⟩ => rfl
    | ⟨1, _⟩ => rfl)

/-- A bias vector made a row and then spread down R rows (the host's two steps), at entry (r, c). -/
theorem hostBias_at {R : Nat} (b : FVec Ideal (⟨1, ![32]⟩ : Shape) .f32)
    (h1 : (⟨1, ![32]⟩ : Shape).BroadcastsInDim (⟨2, ![1, 32]⟩ : Shape) ![1])
    (h2 : (⟨2, ![1, 32]⟩ : Shape).BroadcastsInDim (⟨2, ![R, 32]⟩ : Shape) ![0, 1]) (r : Fin R) (c : Fin 32) :
    broadcastInDim (⟨2, ![R, 32]⟩ : Shape) ![0, 1] h2 (broadcastInDim (⟨2, ![1, 32]⟩ : Shape) ![1] h1 b) (ix2 r c)
      = b (ix1 c) := by
  rw [broadcastInDim_apply ![0, 1] h2 _ (ix2 r c) (ix2 0 c) (fun a => match a with
    | ⟨0, _⟩ => rfl
    | ⟨1, _⟩ => rfl)]
  exact broadcastInDim_apply ![1] h1 b (ix2 0 c) (ix1 c) (fun a => match a with
    | ⟨0, _⟩ => rfl)

/-- A bias vector recast as a one-row matrix, at entry (0, c). -/
theorem rowCast_at (b : FVec Ideal (⟨1, ![32]⟩ : Shape) .f32)
    (h : (⟨1, ![32]⟩ : Shape).ShapeCasts (⟨2, ![1, 32]⟩ : Shape)) (c : Fin 32) :
    shapeCast (⟨2, ![1, 32]⟩ : Shape) b h (ix2 0 c) = b (ix1 c) :=
  shapeCast_apply b h (ix2 0 c) (ix1 c) (by
    rw [Shape.rowMajor_val_one, Shape.rowMajor_val_two]
    show c.val = 0 * 32 + c.val
    omega)

/-- Three 32-column matrices side by side, at entry (r, k). -/
theorem concat3_at {R : Nat}
    (h : Shape.Concatenates [(⟨2, ![R, 32]⟩ : Shape), (⟨2, ![R, 32]⟩ : Shape), (⟨2, ![R, 32]⟩ : Shape)]
      (⟨2, ![R, 96]⟩ : Shape) (1 : Fin 2))
    (a b c : FVec Ideal (⟨2, ![R, 32]⟩ : Shape) .f32) (r : Fin R) (k : Fin 96) :
    concatenate (⟨2, ![R, 96]⟩ : Shape) (1 : Fin 2)
        [⟨(⟨2, ![R, 32]⟩ : Shape), a⟩, ⟨(⟨2, ![R, 32]⟩ : Shape), b⟩, ⟨(⟨2, ![R, 32]⟩ : Shape), c⟩] h (ix2 r k)
      = cat3 (co a) (co b) (co c) r k := by
  unfold cat3
  by_cases hk : k.val < 32
  · rw [dif_pos hk]
    refine concatenate_apply_piece (t := (⟨2, ![R, 96]⟩ : Shape)) (1 : Fin 2)
        [⟨(⟨2, ![R, 32]⟩ : Shape), a⟩, ⟨(⟨2, ![R, 32]⟩ : Shape), b⟩, ⟨(⟨2, ![R, 32]⟩ : Shape), c⟩]
        h (ix2 r k) 0 (by simp) (⟨2, ![R, 32]⟩ : Shape) a rfl rfl 0 rfl
        (ix2 r ⟨k.val, hk⟩) ?_ ?_
    · intro q hq
      match q, hq with
      | ⟨0, _⟩, _ => rfl
      | ⟨1, _⟩, hq => exact absurd rfl hq
    · show 0 + k.val = k.val
      omega
  · rw [dif_neg hk]
    by_cases hk' : k.val < 64
    · rw [dif_pos hk']
      refine concatenate_apply_piece (t := (⟨2, ![R, 96]⟩ : Shape)) (1 : Fin 2)
        [⟨(⟨2, ![R, 32]⟩ : Shape), a⟩, ⟨(⟨2, ![R, 32]⟩ : Shape), b⟩, ⟨(⟨2, ![R, 32]⟩ : Shape), c⟩]
        h (ix2 r k) 1 (by simp) (⟨2, ![R, 32]⟩ : Shape) b rfl rfl 32 rfl
        (ix2 r ⟨k.val - 32, by omega⟩) ?_ ?_
      · intro q hq
        match q, hq with
        | ⟨0, _⟩, _ => rfl
        | ⟨1, _⟩, hq => exact absurd rfl hq
      · show 32 + (k.val - 32) = k.val
        omega
    · rw [dif_neg hk']
      refine concatenate_apply_piece (t := (⟨2, ![R, 96]⟩ : Shape)) (1 : Fin 2)
        [⟨(⟨2, ![R, 32]⟩ : Shape), a⟩, ⟨(⟨2, ![R, 32]⟩ : Shape), b⟩, ⟨(⟨2, ![R, 32]⟩ : Shape), c⟩]
        h (ix2 r k) 2 (by simp) (⟨2, ![R, 32]⟩ : Shape) c rfl rfl 64 rfl
        (ix2 r ⟨k.val - 64, by have := k.isLt; omega⟩) ?_ ?_
      · intro q hq
        match q, hq with
        | ⟨0, _⟩, _ => rfl
        | ⟨1, _⟩, hq => exact absurd rfl hq
      · show 64 + (k.val - 64) = k.val
        omega

/-! ## A layer at an entry: the vector unit's form and the host's form -/

section Layers

variable {R K : Nat}
  (d : DotDims (⟨2, ![R, K]⟩ : Shape) (⟨2, ![K, 32]⟩ : Shape) (⟨2, ![R, 32]⟩ : Shape))
  (hl : d.lhsContracting = [1]) (hr : d.rhsContracting = [0]) (hln : d.lhsNonContracting = [0])
  (hrn : d.rhsNonContracting = [1]) (hlb : d.lhsBatch = []) (hrb : d.rhsBatch = [])
  (hT : (⟨2, ![32, K]⟩ : Shape).Transposes [1, 0] (⟨2, ![K, 32]⟩ : Shape))

include hl hr hln hrn hlb hrb

/-- The vector unit's layer: inputs and weights narrowed (the identity on the extended reals), the weights
    transposed, the product into a zero accumulator, the bias row recast and spread down the rows, added. -/
theorem unitLayer_at (hlt : FTy.bits .bf16 < FTy.bits .f32)
    (hS : (⟨2, ![1, 32]⟩ : Shape).ShapeCasts (⟨2, ![1, 32]⟩ : Shape))
    (hB : (⟨2, ![1, 32]⟩ : Shape).Broadcasts (⟨2, ![R, 32]⟩ : Shape))
    (x : FVec Ideal (⟨2, ![R, K]⟩ : Shape) .f32) (W : FVec Ideal (⟨2, ![32, K]⟩ : Shape) .f32)
    (b : FVec Ideal (⟨2, ![1, 32]⟩ : Shape) .f32) (r : Fin R) (c : Fin 32) :
    addf (matmul d none (truncf .bf16 x hlt) (transpose (⟨2, ![K, 32]⟩ : Shape) [1, 0] (truncf .bf16 W hlt) hT)
          (constant (⟨2, ![R, 32]⟩ : Shape) .f32 0x00000000#32))
        (broadcastTo (⟨2, ![R, 32]⟩ : Shape) (shapeCast (⟨2, ![1, 32]⟩ : Shape) b hS) hB) (ix2 r c)
      = dense (co x) (co W) (fun q => b (ix2 0 q)) r c := by
  rw [addf_apply]
  unfold matmul
  rw [Cert.LibDot.matmul_zero_at d hl hr hln hrn hlb hrb, shapeCast_self, rowBroadcast_at]
  unfold dense
  congr 1
  refine Finset.sum_congr rfl fun k _ => ?_
  rw [transpose_at]
  rfl

/-- The host's layer: the general product with the transposed weights, plus the bias broadcast in two steps. -/
theorem hostLayer_at
    (h1 : (⟨1, ![32]⟩ : Shape).BroadcastsInDim (⟨2, ![1, 32]⟩ : Shape) ![1])
    (h2 : (⟨2, ![1, 32]⟩ : Shape).BroadcastsInDim (⟨2, ![R, 32]⟩ : Shape) ![0, 1])
    (x : FVec Ideal (⟨2, ![R, K]⟩ : Shape) .f32) (W : FVec Ideal (⟨2, ![32, K]⟩ : Shape) .f32)
    (b : FVec Ideal (⟨1, ![32]⟩ : Shape) .f32) (r : Fin R) (c : Fin 32) :
    addf (Host.dotGeneral d none x (transpose (⟨2, ![K, 32]⟩ : Shape) [1, 0] W hT))
        (broadcastInDim (⟨2, ![R, 32]⟩ : Shape) ![0, 1] h2 (broadcastInDim (⟨2, ![1, 32]⟩ : Shape) ![1] h1 b)) (ix2 r c)
      = dense (co x) (co W) (fun q => b (ix1 q)) r c := by
  rw [addf_apply, hostBias_at]
  unfold Host.dotGeneral
  rw [Cert.LibDot.dotGeneral_at d hl hr hln hrn hlb hrb]
  unfold dense
  congr 1
  refine Finset.sum_congr rfl fun k _ => ?_
  rw [transpose_at]

end Layers

/-- Rectification as the vector unit writes it: the larger of a vector and the splat of the zero scalar. -/
theorem unitRelu_at {s : Shape} (v : FVec Ideal s .f32) (i : s.Idx) :
    maximumf v (broadcast s (Scalar.ofBits (F := Ideal) .f32 0x00000000#32)) i = relu (v i) := rfl

/-- Rectification as the host writes it: the larger of an array and the zero constant broadcast to its shape. -/
theorem hostRelu_at {s : Shape} (h : (⟨0, ![]⟩ : Shape).BroadcastsInDim s ![]) (v : FVec Ideal s .f32) (i : s.Idx) :
    maximumf v (broadcastInDim s ![] h (constant (F := Ideal) (⟨0, ![]⟩ : Shape) .f32 0x00000000#32)) i = relu (v i) := by
  rw [maximumf_apply, broadcastInDim_apply ![] h _ i ix0 (fun a => a.elim0)]
  rfl

end Cert.Dense

end
-- ==== Proof.NodeA.lean ====
/-
  The node perceptron's pallas_call whose input table is main_arg0, read as a value.

  The call walks the 100000 rows of its input in ten blocks of 10000 rows. At each block the body computes, for
  every row of the block and every output column, two rectified layers of that row (Dense.lean's nodeVal); the
  weights and the two bias rows are the same whole arrays at every block. Block t of the output array is rows
  10000·t … 10000·t + 9999, so the ten blocks cover the array and the array ends holding nodeVal of the input
  arrays at every entry.
-/
import proofs.«164511_j979252543696_1_alg».proof.Proof.Gen.KernelIdeal.Frame
import proofs.«164511_j979252543696_1_alg».proof.Proof.Dense

set_option maxRecDepth 16384

noncomputable section

namespace Cert.KernelIdeal.NodeA

open Idealize.ShloMosaic Idealize.ShloMosaic.TcCoe Idealize.ShloMosaic.ValueIdx
open Idealize.ShloMosaic.Pipeline (Dat)
open Cert.KernelIdeal Cert.KernelIdeal.Gen Cert.Dense

-- the region's entry contents: any
variable (V : (c : Dev nD) → (b : Ref sig .tc) → Buf (Elt Ideal) ((c : Thread nD τ).loc b))

theorem hz : (![0, 0] : Fin 2 → Nat) = fun _ => 0 := funext fun a => by fin_cases a <;> rfl

/-- One layer as the body writes it, at an entry of a block. -/
theorem layer_at (x : FVec Ideal S10000x32 .f32) (W : FVec Ideal S32x32 .f32) (b : FVec Ideal S1x32 .f32)
    (r : Fin 10000) (c : Fin 32) :
    addf (matmul dot_S10000x32_S32x32_S10000x32_1_0_0_1_n_n none (truncf .bf16 x bitsLt_bf16_f32)
          (transpose S32x32 [1, 0] (truncf .bf16 W bitsLt_bf16_f32) transposes_S32x32_p1_0_S32x32)
          (constant S10000x32 .f32 0x00000000#32))
        (broadcastTo S10000x32 (shapeCast S1x32 b shapeCasts_S1x32_S1x32) broadcasts_S1x32_S10000x32) (ix2 r c)
      = dense (co x) (co W) (fun q => b (ix2 0 q)) r c :=
  unitLayer_at dot_S10000x32_S32x32_S10000x32_1_0_0_1_n_n rfl rfl rfl rfl rfl rfl transposes_S32x32_p1_0_S32x32
    bitsLt_bf16_f32 shapeCasts_S1x32_S1x32 broadcasts_S1x32_S10000x32 x W b r c

/-- The body's stored value at entry (p, q) of a block: the node perceptron of the block's row p. -/
theorem pay_at (x0 : FVec Ideal S10000x32 .f32) (x1 : FVec Ideal S32x32 .f32) (x2 : FVec Ideal S1x32 .f32)
    (x3 : FVec Ideal S32x32 .f32) (x4 : FVec Ideal S1x32 .f32) (p : Fin 10000) (q : Fin 32) :
    k0_pay1 (F := Ideal) x0 x1 x2 x3 x4 (ix2 p q)
      = nodeVal (co x0) (co x1) (fun j => x2 (ix2 0 j)) (co x3) (fun j => x4 (ix2 0 j)) p q := by
  show maximumf (addf (matmul dot_S10000x32_S32x32_S10000x32_1_0_0_1_n_n none
      (truncf .bf16 (maximumf (addf (matmul dot_S10000x32_S32x32_S10000x32_1_0_0_1_n_n none (truncf .bf16 x0 bitsLt_bf16_f32)
          (transpose S32x32 [1, 0] (truncf .bf16 x1 bitsLt_bf16_f32) transposes_S32x32_p1_0_S32x32)
          (constant S10000x32 .f32 0x00000000#32))
        (broadcastTo S10000x32 (shapeCast S1x32 x2 shapeCasts_S1x32_S1x32) broadcasts_S1x32_S10000x32))
        (broadcast S10000x32 (Scalar.ofBits (F := Ideal) .f32 0x00000000#32))) bitsLt_bf16_f32)
      (transpose S32x32 [1, 0] (truncf .bf16 x3 bitsLt_bf16_f32) transposes_S32x32_p1_0_S32x32)
      (constant S10000x32 .f32 0x00000000#32))
    (broadcastTo S10000x32 (shapeCast S1x32 x4 shapeCasts_S1x32_S1x32) broadcasts_S1x32_S10000x32))
    (broadcast S10000x32 (Scalar.ofBits (F := Ideal) .f32 0x00000000#32)) (ix2 p q) = _
  rw [unitRelu_at, layer_at]
  unfold nodeVal dense
  refine congrArg relu (congrArg (· + _) (Finset.sum_congr rfl fun k _ => congrArg (· * _) ?_))
  show maximumf _ _ (ix2 p k) = _
  rw [unitRelu_at, layer_at]
  rfl

/-- The printed index maps over the grid: the input rows and the output move one block per point; the weights and
    the bias rows stay at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the array that row p of block t is. -/
abbrev rowOf (t : Fin cfg0.N) (p : Fin 10000) : Fin 100000 :=
  ⟨t.val * 10000 + p.val, by have := t.isLt; have := p.isLt; show _ < 100000; have h : t.val < 10 := t.isLt; omega⟩

/-- Entry (p, k) of the input's block t sits at row 10000·t + p of the input array. -/
theorem emb_in (t : Fin cfg0.N) (p : Fin 10000) (k : Fin 32) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 32 + 1 * k.val = k.val; omega

/-- Entry (p, q) of the output's block t sits at row 10000·t + p of the output array. -/
theorem emb_out (t : Fin cfg0.N) (p : Fin 10000) (q : Fin 32) :
    ((cfg0.win 5).blk t).view.emb (ix2 p q) = ix2 (rowOf t p) q := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; omega
  | ⟨1, _⟩ => show win0_5.index t (1 : Fin 2) * 32 + 1 * q.val = q.val; omega

/-- The first layer's weights' block is the whole array, at every point. -/
theorem blk_W1 (c : Dev nD) (t : Fin cfg0.N) : (iblk0 V c 1 t : S32x32.Idx → EReal) = V c main_arg4 := by
  obtain ⟨-, -, e0, e1, -⟩ := idx_facts t
  funext y
  show V c main_arg4 (((cfg0.win 1).blk t).view.emb y) = V c main_arg4 y
  refine congrArg (V c main_arg4) (funext fun a => Fin.ext ?_)
  match a with
  | ⟨0, _⟩ => show win0_1.index t (0 : Fin 2) * 32 + 1 * (y 0).val = (y 0).val; omega
  | ⟨1, _⟩ => show win0_1.index t (1 : Fin 2) * 32 + 1 * (y 1).val = (y 1).val; omega

/-- The first bias row's block is the whole row. -/
theorem blk_b1 (c : Dev nD) (t : Fin cfg0.N) : (iblk0 V c 2 t : S1x32.Idx → EReal) = V c main_v0 := by
  obtain ⟨-, -, -, -, e0, e1, -⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second layer's weights' block is the whole array. -/
theorem blk_W2 (c : Dev nD) (t : Fin cfg0.N) : (iblk0 V c 3 t : S32x32.Idx → EReal) = V c main_arg6 := by
  obtain ⟨-, -, -, -, -, -, e0, e1, -⟩ := idx_facts t
  funext y
  show V c main_arg6 (((cfg0.win 3).blk t).view.emb y) = V c main_arg6 y
  refine congrArg (V c main_arg6) (funext fun a => Fin.ext ?_)
  match a with
  | ⟨0, _⟩ => show win0_3.index t (0 : Fin 2) * 32 + 1 * (y 0).val = (y 0).val; omega
  | ⟨1, _⟩ => show win0_3.index t (1 : Fin 2) * 32 + 1 * (y 1).val = (y 1).val; omega

/-- The second bias row's block is the whole row. -/
theorem blk_b2 (c : Dev nD) (t : Fin cfg0.N) : (iblk0 V c 4 t : S1x32.Idx → EReal) = V c main_v1 := by
  obtain ⟨-, -, -, -, -, -, -, -, e0, e1, -⟩ := idx_facts t
  funext y
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- What the output array ends holding: the node perceptron of the input arrays, entry by entry. -/
def result (c : Dev nD) : S100000x32.Idx → EReal := fun i =>
  nodeVal (co (φ := .f32) (V c main_arg0)) (co (φ := .f32) (V c main_arg4))
    (fun j => (V c main_v0 : FVec Ideal S1x32 .f32) (ix2 0 j)) (co (φ := .f32) (V c main_arg6))
    (fun j => (V c main_v1 : FVec Ideal S1x32 .f32) (ix2 0 j)) (i 0) (i 1)

/-- What point t writes back is block t of that array. -/
theorem flushed_eq (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero hz]
  simp only [View.ld_unit_zero (S := S10000x32) hz, View.ld_unit_zero (S := S32x32) hz, View.ld_unit_zero (S := S1x32) hz]
  funext j
  obtain ⟨p, q, rfl⟩ : ∃ (p : Fin 10000) (q : Fin 32), j = ix2 p q := ⟨j 0, j 1, eq_ix2 j⟩
  show k0_pay1 (iblk0 V c 0 t) (iblk0 V c 1 t) (iblk0 V c 2 t) (iblk0 V c 3 t) (iblk0 V c 4 t) (ix2 p q)
    = result V c (((cfg0.win 5).blk t).view.emb (ix2 p q))
  rw [emb_out]
  refine (pay_at (iblk0 V c 0 t) (iblk0 V c 1 t) (iblk0 V c 2 t) (iblk0 V c 3 t) (iblk0 V c 4 t) p q).trans ?_
  rw [blk_W1 V c t, blk_b1 V c t, blk_W2 V c t, blk_b2 V c t]
  show _ = nodeVal _ _ _ _ _ (rowOf t p) q
  refine nodeVal_row _ _ _ _ _ _ p (rowOf t p) (fun k => ?_) q
  show V c main_arg0 (((cfg0.win 0).blk t).view.emb (ix2 p k)) = V c main_arg0 (ix2 (rowOf t p) k)
  rw [emb_in]

/-- An index of the output array is in point t's block iff each coordinate is in the block's range. -/
theorem mem_blk (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v2).slice (win0_5.rect t)).set ↔ _
  rw [View.set_slice_whole, Rect.mem_set_unit]
  exact Iff.rfl

/-- Every entry of the output array is in the block of the point its row falls in. -/
theorem cover (i : S100000x32.Idx) :
    ∃ t : Fin cfg0.N, (cfg0.win 5).flush t = true ∧ i ∈ ((cfg0.win 5).blk t).view.set := by
  have hi0 : (i 0).val < 100000 := (i 0).isLt
  have hi1 : (i 1).val < 32 := (i 1).isLt
  have ht : (i 0).val / 10000 < 10 := by omega
  refine ⟨⟨(i 0).val / 10000, ht⟩, flush0_5 _, ?_⟩
  obtain ⟨-, -, -, -, -, -, -, -, -, -, e0, e1⟩ := idx_facts ⟨(i 0).val / 10000, ht⟩
  rw [mem_blk]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e0]; show (i 0).val / 10000 * 10000 ≤ _ ∧ _ < (i 0).val / 10000 * 10000 + 10000; omega
  | ⟨1, _⟩ =>
    show win0_5.index ⟨(i 0).val / 10000, ht⟩ (1 : Fin 2) * 32 ≤ (i 1).val
      ∧ (i 1).val < win0_5.index ⟨(i 0).val / 10000, ht⟩ (1 : Fin 2) * 32 + 32
    rw [e1]; omega

/-- The output array after the region: the node perceptron of the region's input arrays. -/
theorem final (c : Dev nD) : (dat0 (F := Ideal) V c).arrAt 5 cfg0.N = result V c :=
  (dat0 (F := Ideal) V c).arrAt_eq_of_cover 5 (result V c) (fun t _ => flushed_eq V c t) (cover)

end Cert.KernelIdeal.NodeA

end
-- ==== Proof.NodeB.lean ====
/-
  The node perceptron's pallas_call whose input table is main_arg1, read as a value.

  The call walks the 100000 rows of its input in ten blocks of 10000 rows. At each block the body computes, for
  every row of the block and every output column, two rectified layers of that row (Dense.lean's nodeVal); the
  weights and the two bias rows are the same whole arrays at every block. Block t of the output array is rows
  10000·t … 10000·t + 9999, so the ten blocks cover the array and the array ends holding nodeVal of the input
  arrays at every entry.
-/
import proofs.«164511_j979252543696_1_alg».proof.Proof.Gen.KernelIdeal.Frame
import proofs.«164511_j979252543696_1_alg».proof.Proof.Dense

set_option maxRecDepth 16384

noncomputable section

namespace Cert.KernelIdeal.NodeB

open Idealize.ShloMosaic Idealize.ShloMosaic.TcCoe Idealize.ShloMosaic.ValueIdx
open Idealize.ShloMosaic.Pipeline (Dat)
open Cert.KernelIdeal Cert.KernelIdeal.Gen Cert.Dense

-- the region's entry contents: any
variable (V : (c : Dev nD) → (b : Ref sig .tc) → Buf (Elt Ideal) ((c : Thread nD τ).loc b))

theorem hz : (![0, 0] : Fin 2 → Nat) = fun _ => 0 := funext fun a => by fin_cases a <;> rfl

/-- One layer as the body writes it, at an entry of a block. -/
theorem layer_at (x : FVec Ideal S10000x32 .f32) (W : FVec Ideal S32x32 .f32) (b : FVec Ideal S1x32 .f32)
    (r : Fin 10000) (c : Fin 32) :
    addf (matmul dot_S10000x32_S32x32_S10000x32_1_0_0_1_n_n none (truncf .bf16 x bitsLt_bf16_f32)
          (transpose S32x32 [1, 0] (truncf .bf16 W bitsLt_bf16_f32) transposes_S32x32_p1_0_S32x32)
          (constant S10000x32 .f32 0x00000000#32))
        (broadcastTo S10000x32 (shapeCast S1x32 b shapeCasts_S1x32_S1x32) broadcasts_S1x32_S10000x32) (ix2 r c)
      = dense (co x) (co W) (fun q => b (ix2 0 q)) r c :=
  unitLayer_at dot_S10000x32_S32x32_S10000x32_1_0_0_1_n_n rfl rfl rfl rfl rfl rfl transposes_S32x32_p1_0_S32x32
    bitsLt_bf16_f32 shapeCasts_S1x32_S1x32 broadcasts_S1x32_S10000x32 x W b r c

/-- The body's stored value at entry (p, q) of a block: the node perceptron of the block's row p. -/
theorem pay_at (x0 : FVec Ideal S10000x32 .f32) (x1 : FVec Ideal S32x32 .f32) (x2 : FVec Ideal S1x32 .f32)
    (x3 : FVec Ideal S32x32 .f32) (x4 : FVec Ideal S1x32 .f32) (p : Fin 10000) (q : Fin 32) :
    k1_pay1 (F := Ideal) x0 x1 x2 x3 x4 (ix2 p q)
      = nodeVal (co x0) (co x1) (fun j => x2 (ix2 0 j)) (co x3) (fun j => x4 (ix2 0 j)) p q := by
  show maximumf (addf (matmul dot_S10000x32_S32x32_S10000x32_1_0_0_1_n_n none
      (truncf .bf16 (maximumf (addf (matmul dot_S10000x32_S32x32_S10000x32_1_0_0_1_n_n none (truncf .bf16 x0 bitsLt_bf16_f32)
          (transpose S32x32 [1, 0] (truncf .bf16 x1 bitsLt_bf16_f32) transposes_S32x32_p1_0_S32x32)
          (constant S10000x32 .f32 0x00000000#32))
        (broadcastTo S10000x32 (shapeCast S1x32 x2 shapeCasts_S1x32_S1x32) broadcasts_S1x32_S10000x32))
        (broadcast S10000x32 (Scalar.ofBits (F := Ideal) .f32 0x00000000#32))) bitsLt_bf16_f32)
      (transpose S32x32 [1, 0] (truncf .bf16 x3 bitsLt_bf16_f32) transposes_S32x32_p1_0_S32x32)
      (constant S10000x32 .f32 0x00000000#32))
    (broadcastTo S10000x32 (shapeCast S1x32 x4 shapeCasts_S1x32_S1x32) broadcasts_S1x32_S10000x32))
    (broadcast S10000x32 (Scalar.ofBits (F := Ideal) .f32 0x00000000#32)) (ix2 p q) = _
  rw [unitRelu_at, layer_at]
  unfold nodeVal dense
  refine congrArg relu (congrArg (· + _) (Finset.sum_congr rfl fun k _ => congrArg (· * _) ?_))
  show maximumf _ _ (ix2 p k) = _
  rw [unitRelu_at, layer_at]
  rfl

/-- The printed index maps over the grid: the input rows and the output move one block per point; the weights and
    the bias rows stay at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The row of the array that row p of block t is. -/
abbrev rowOf (t : Fin cfg1.N) (p : Fin 10000) : Fin 100000 :=
  ⟨t.val * 10000 + p.val, by have := t.isLt; have := p.isLt; show _ < 100000; have h : t.val < 10 := t.isLt; omega⟩

/-- Entry (p, k) of the input's block t sits at row 10000·t + p of the input array. -/
theorem emb_in (t : Fin cfg1.N) (p : Fin 10000) (k : Fin 32) :
    ((cfg1.win 0).blk t).view.emb (ix2 p k) = ix2 (rowOf t p) k := by
  obtain ⟨e0, e1, -⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 32 + 1 * k.val = k.val; omega

/-- Entry (p, q) of the output's block t sits at row 10000·t + p of the output array. -/
theorem emb_out (t : Fin cfg1.N) (p : Fin 10000) (q : Fin 32) :
    ((cfg1.win 5).blk t).view.emb (ix2 p q) = ix2 (rowOf t p) q := by
  obtain ⟨-, -, -, -, -, -, -, -, -, -, e0, e1⟩ := idx_facts t
  funext a; apply Fin.ext
  match a with
  | ⟨0, _⟩ => show win1_5.index t (0 : Fin 2) * 10000 + 1 * p.val = t.val * 10000 + p.val; omega
  | ⟨1, _⟩ => show win1_5.index t (1 : Fin 2) * 32 + 1 * q.val = q.val; omega

/-- The first layer's weights' block is the whole array, at every point. -/
theorem blk_W1 (c : Dev nD) (t : Fin cfg1.N) : (iblk1 V c 1 t : S32x32.Idx → EReal) = V c main_arg8 := by
  obtain ⟨-, -, e0, e1, -⟩ := idx_facts t
  funext y
  show V c main_arg8 (((cfg1.win 1).blk t).view.emb y) = V c main_arg8 y
  refine congrArg (V c main_arg8) (funext fun a => Fin.ext ?_)
  match a with
  | ⟨0, _⟩ => show win1_1.index t (0 : Fin 2) * 32 + 1 * (y 0).val = (y 0).val; omega
  | ⟨1, _⟩ => show win1_1.index t (1 : Fin 2) * 32 + 1 * (y 1).val = (y 1).val; omega

/-- The first bias row's block is the whole row. -/
theorem blk_b1 (c : Dev nD) (t : Fin cfg1.N) : (iblk1 V c 2 t : S1x32.Idx → EReal) = V c main_v3 := by
  obtain ⟨-, -, -, -, e0, e1, -⟩ := idx_facts t
  funext y
  show V c main_v3 (((cfg1.win 2).blk t).view.emb y) = V c main_v3 y
  refine congrArg (V c main_v3) (funext fun a => Fin.ext ?_)
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- The second layer's weights' block is the whole array. -/
theorem blk_W2 (c : Dev nD) (t : Fin cfg1.N) : (iblk1 V c 3 t : S32x32.Idx → EReal) = V c main_arg10 := by
  obtain ⟨-, -, -, -, -, -, e0, e1, -⟩ := idx_facts t
  funext y
  show V c main_arg10 (((cfg1.win 3).blk t).view.emb y) = V c main_arg10 y
  refine congrArg (V c main_arg10) (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The second bias row's block is the whole row. -/
theorem blk_b2 (c : Dev nD) (t : Fin cfg1.N) : (iblk1 V c 4 t : S1x32.Idx → EReal) = V c main_v4 := by
  obtain ⟨-, -, -, -, -, -, -, -, e0, e1, -⟩ := idx_facts t
  funext y
  show V c main_v4 (((cfg1.win 4).blk t).view.emb y) = V c main_v4 y
  refine congrArg (V c main_v4) (funext fun a => Fin.ext ?_)
  match a with
  | ⟨0, _⟩ => show win1_4.index t (0 : Fin 2) * 1 + 1 * (y 0).val = (y 0).val; omega
  | ⟨1, _⟩ => show win1_4.index t (1 : Fin 2) * 32 + 1 * (y 1).val = (y 1).val; omega

/-- What the output array ends holding: the node perceptron of the input arrays, entry by entry. -/
def result (c : Dev nD) : S100000x32.Idx → EReal := fun i =>
  nodeVal (co (φ := .f32) (V c main_arg1)) (co (φ := .f32) (V c main_arg8))
    (fun j => (V c main_v3 : FVec Ideal S1x32 .f32) (ix2 0 j)) (co (φ := .f32) (V c main_arg10))
    (fun j => (V c main_v4 : FVec Ideal S1x32 .f32) (ix2 0 j)) (i 0) (i 1)

/-- What point t writes back is block t of that array. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 (F := Ideal) V c).after 5 t) = _
  rw [after1_5]
  unfold out1_5
  rw [View.canon_unit_zero hz]
  simp only [View.ld_unit_zero (S := S10000x32) hz, View.ld_unit_zero (S := S32x32) hz, View.ld_unit_zero (S := S1x32) hz]
  funext j
  obtain ⟨p, q, rfl⟩ : ∃ (p : Fin 10000) (q : Fin 32), j = ix2 p q := ⟨j 0, j 1, eq_ix2 j⟩
  show k1_pay1 (iblk1 V c 0 t) (iblk1 V c 1 t) (iblk1 V c 2 t) (iblk1 V c 3 t) (iblk1 V c 4 t) (ix2 p q)
    = result V c (((cfg1.win 5).blk t).view.emb (ix2 p q))
  rw [emb_out]
  refine (pay_at (iblk1 V c 0 t) (iblk1 V c 1 t) (iblk1 V c 2 t) (iblk1 V c 3 t) (iblk1 V c 4 t) p q).trans ?_
  rw [blk_W1 V c t, blk_b1 V c t, blk_W2 V c t, blk_b2 V c t]
  show _ = nodeVal _ _ _ _ _ (rowOf t p) q
  refine nodeVal_row _ _ _ _ _ _ p (rowOf t p) (fun k => ?_) q
  show V c main_arg1 (((cfg1.win 0).blk t).view.emb (ix2 p k)) = V c main_arg1 (ix2 (rowOf t p) k)
  rw [emb_in]

/-- An index of the output array is in point t's block iff each coordinate is in the block's range. -/
theorem mem_blk (t : Fin cfg1.N) (i : S100000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v5).slice (win1_5.rect t)).set ↔ _
  rw [View.set_slice_whole, Rect.mem_set_unit]
  exact Iff.rfl

/-- Every entry of the output array is in the block of the point its row falls in. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have ht : (i 0).val / 10000 < 10 := by omega
  refine ⟨⟨(i 0).val / 10000, ht⟩, flush1_5 _, ?_⟩
  obtain ⟨-, -, -, -, -, -, -, -, -, -, e0, e1⟩ := idx_facts ⟨(i 0).val / 10000, ht⟩
  rw [mem_blk]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e0]; show (i 0).val / 10000 * 10000 ≤ _ ∧ _ < (i 0).val / 10000 * 10000 + 10000; omega
  | ⟨1, _⟩ =>
    show win1_5.index ⟨(i 0).val / 10000, ht⟩ (1 : Fin 2) * 32 ≤ (i 1).val
      ∧ (i 1).val < win1_5.index ⟨(i 0).val / 10000, ht⟩ (1 : Fin 2) * 32 + 32
    rw [e1]; omega

/-- The output array after the region: the node perceptron of the region's input arrays. -/
theorem final (c : Dev nD) : (dat1 (F := Ideal) V c).arrAt 5 cfg1.N = result V c :=
  (dat1 (F := Ideal) V c).arrAt_eq_of_cover 5 (result V c) (fun t _ => flushed_eq V c t) (cover)

end Cert.KernelIdeal.NodeB

end
-- ==== Proof.EdgeC.lean ====
/-
  The edge perceptron's pallas_call, read as a value.

  The call walks the 2000000 edges in 200 blocks of 10000 rows. At each block the body sets the block of the edge
  features and the blocks of the two gathered node tables side by side (96 columns), applies a rectified layer and
  then a plain layer (Dense.lean's edgeVal of that row of the three inputs); the weights and the two bias rows are the
  same whole arrays at every block. Block t of the output array is rows 10000·t … 10000·t + 9999, so the 200 blocks
  cover the array and it ends holding edgeVal of the input arrays at every entry.
-/
import proofs.«164511_j979252543696_1_alg».proof.Proof.Gen.KernelIdeal.Frame
import proofs.«164511_j979252543696_1_alg».proof.Proof.Dense

set_option maxRecDepth 16384

noncomputable section

namespace Cert.KernelIdeal.EdgeC

open Idealize.ShloMosaic Idealize.ShloMosaic.TcCoe Idealize.ShloMosaic.ValueIdx
open Idealize.ShloMosaic.Pipeline (Dat)
open Cert.KernelIdeal Cert.KernelIdeal.Gen Cert.Dense

-- the region's entry contents: any
variable (V : (c : Dev nD) → (b : Ref sig .tc) → Buf (Elt Ideal) ((c : Thread nD τ).loc b))

theorem hz : (![0, 0] : Fin 2 → Nat) = fun _ => 0 := funext fun a => by fin_cases a <;> rfl

/-- The first layer as the body writes it (96 inputs), at an entry of a block. -/
theorem layer96_at (x : FVec Ideal S10000x96 .f32) (W : FVec Ideal S32x96 .f32) (b : FVec Ideal S1x32 .f32)
    (r : Fin 10000) (c : Fin 32) :
    addf (matmul dot_S10000x96_S96x32_S10000x32_1_0_0_1_n_n none (truncf .bf16 x bitsLt_bf16_f32)
          (transpose S96x32 [1, 0] (truncf .bf16 W bitsLt_bf16_f32) transposes_S32x96_p1_0_S96x32)
          (constant S10000x32 .f32 0x00000000#32))
        (broadcastTo S10000x32 (shapeCast S1x32 b shapeCasts_S1x32_S1x32) broadcasts_S1x32_S10000x32) (ix2 r c)
      = dense (co x) (co W) (fun q => b (ix2 0 q)) r c :=
  unitLayer_at dot_S10000x96_S96x32_S10000x32_1_0_0_1_n_n rfl rfl rfl rfl rfl rfl transposes_S32x96_p1_0_S96x32
    bitsLt_bf16_f32 shapeCasts_S1x32_S1x32 broadcasts_S1x32_S10000x32 x W b r c

/-- The second layer as the body writes it (32 inputs), at an entry of a block. -/
theorem layer32_at (x : FVec Ideal S10000x32 .f32) (W : FVec Ideal S32x32 .f32) (b : FVec Ideal S1x32 .f32)
    (r : Fin 10000) (c : Fin 32) :
    addf (matmul dot_S10000x32_S32x32_S10000x32_1_0_0_1_n_n none (truncf .bf16 x bitsLt_bf16_f32)
          (transpose S32x32 [1, 0] (truncf .bf16 W bitsLt_bf16_f32) transposes_S32x32_p1_0_S32x32)
          (constant S10000x32 .f32 0x00000000#32))
        (broadcastTo S10000x32 (shapeCast S1x32 b shapeCasts_S1x32_S1x32) broadcasts_S1x32_S10000x32) (ix2 r c)
      = dense (co x) (co W) (fun q => b (ix2 0 q)) r c :=
  unitLayer_at dot_S10000x32_S32x32_S10000x32_1_0_0_1_n_n rfl rfl rfl rfl rfl rfl transposes_S32x32_p1_0_S32x32
    bitsLt_bf16_f32 shapeCasts_S1x32_S1x32 broadcasts_S1x32_S10000x32 x W b r c

/-- The body's stored value at entry (p, q) of a block: the edge perceptron of row p of the three input blocks. -/
theorem pay_at (x0 x1 x2 : FVec Ideal S10000x32 .f32) (x3 : FVec Ideal S32x96 .f32) (x4 : FVec Ideal S1x32 .f32)
    (x5 : FVec Ideal S32x32 .f32) (x6 : FVec Ideal S1x32 .f32) (p : Fin 10000) (q : Fin 32) :
    k2_pay1 (F := Ideal) x0 x1 x2 x3 x4 x5 x6 (ix2 p q)
      = edgeVal (co x0) (co x1) (co x2) (co x3) (fun j => x4 (ix2 0 j)) (co x5) (fun j => x6 (ix2 0 j)) p q := by
  show addf (matmul dot_S10000x32_S32x32_S10000x32_1_0_0_1_n_n none
      (truncf .bf16 (maximumf (addf (matmul dot_S10000x96_S96x32_S10000x32_1_0_0_1_n_n none
          (truncf .bf16 (concatenate S10000x96 1 [⟨S10000x32, x0⟩, ⟨S10000x32, shapeCast S10000x32 x1 shapeCasts_S10000x32_S10000x32⟩,
              ⟨S10000x32, shapeCast S10000x32 x2 shapeCasts_S10000x32_S10000x32⟩]
            concatenates_S10000x32_S10000x32_S10000x32_S10000x96_d1) bitsLt_bf16_f32)
          (transpose S96x32 [1, 0] (truncf .bf16 x3 bitsLt_bf16_f32) transposes_S32x96_p1_0_S96x32)
          (constant S10000x32 .f32 0x00000000#32))
        (broadcastTo S10000x32 (shapeCast S1x32 x4 shapeCasts_S1x32_S1x32) broadcasts_S1x32_S10000x32))
        (broadcast S10000x32 (Scalar.ofBits (F := Ideal) .f32 0x00000000#32))) bitsLt_bf16_f32)
      (transpose S32x32 [1, 0] (truncf .bf16 x5 bitsLt_bf16_f32) transposes_S32x32_p1_0_S32x32)
      (constant S10000x32 .f32 0x00000000#32))
    (broadcastTo S10000x32 (shapeCast S1x32 x6 shapeCasts_S1x32_S1x32) broadcasts_S1x32_S10000x32) (ix2 p q) = _
  rw [layer32_at]
  unfold edgeVal dense
  refine congrArg (· + _) (Finset.sum_congr rfl fun k _ => congrArg (· * _) ?_)
  show maximumf _ _ (ix2 p k) = _
  rw [unitRelu_at, layer96_at]
  unfold dense
  refine congrArg relu (congrArg (· + _) (Finset.sum_congr rfl fun l _ => congrArg (· * _) ?_))
  refine (concat3_at concatenates_S10000x32_S10000x32_S10000x32_S10000x96_d1 x0 _ _ p l).trans ?_
  rw [shapeCast_self, shapeCast_self]

/-- The printed index maps over the grid: the three row-blocked inputs and the output move one block per point; the
    weights and the bias rows stay at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The row of the array that row p of block t is. -/
abbrev rowOf (t : Fin cfg2.N) (p : Fin 10000) : Fin 2000000 :=
  ⟨t.val * 10000 + p.val, by have := p.isLt; show _ < 2000000; have h : t.val < 200 := t.isLt; omega⟩

/-- Entry (p, k) of the edge features' block t sits at row 10000·t + p of the array. -/
theorem emb_e (t : Fin cfg2.N) (p : Fin 10000) (k : Fin 32) :
    ((cfg2.win 0).blk t).view.emb (ix2 p k) = ix2 (rowOf t p) k := by
  obtain ⟨e0, e1, -⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 32 + 1 * k.val = k.val; omega

/-- Entry (p, k) of the first gathered table's block t sits at row 10000·t + p. -/
theorem emb_vg (t : Fin cfg2.N) (p : Fin 10000) (k : Fin 32) :
    ((cfg2.win 1).blk t).view.emb (ix2 p k) = ix2 (rowOf t p) k := by
  obtain ⟨-, -, e0, e1, -⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 32 + 1 * k.val = k.val; omega

/-- Entry (p, k) of the second gathered table's block t sits at row 10000·t + p. -/
theorem emb_cg (t : Fin cfg2.N) (p : Fin 10000) (k : Fin 32) :
    ((cfg2.win 2).blk t).view.emb (ix2 p k) = ix2 (rowOf t p) k := by
  obtain ⟨-, -, -, -, e0, e1, -⟩ := idx_facts t
  funext a; apply Fin.ext
  match a with
  | ⟨0, _⟩ => show win2_2.index t (0 : Fin 2) * 10000 + 1 * p.val = t.val * 10000 + p.val; omega
  | ⟨1, _⟩ => show win2_2.index t (1 : Fin 2) * 32 + 1 * k.val = k.val; omega

/-- Entry (p, q) of the output's block t sits at row 10000·t + p of the output array. -/
theorem emb_out (t : Fin cfg2.N) (p : Fin 10000) (k : Fin 32) :
    ((cfg2.win 7).blk t).view.emb (ix2 p k) = ix2 (rowOf t p) k := by
  obtain ⟨-, -, -, -, -, -, -, -, -, -, -, -, -, -, e0, e1⟩ := idx_facts t
  funext a; apply Fin.ext
  match a with
  | ⟨0, _⟩ => show win2_7.index t (0 : Fin 2) * 10000 + 1 * p.val = t.val * 10000 + p.val; omega
  | ⟨1, _⟩ => show win2_7.index t (1 : Fin 2) * 32 + 1 * k.val = k.val; omega

/-- The first layer's weights' block is the whole array, at every point. -/
theorem blk_W1 (c : Dev nD) (t : Fin cfg2.N) : (iblk2 V c 3 t : S32x96.Idx → EReal) = V c main_arg12 := by
  obtain ⟨-, -, -, -, -, -, e0, e1, -⟩ := idx_facts t
  funext y
  show V c main_arg12 (((cfg2.win 3).blk t).view.emb y) = V c main_arg12 y
  refine congrArg (V c main_arg12) (funext fun a => Fin.ext ?_)
  match a with
  | ⟨0, _⟩ => show win2_3.index t (0 : Fin 2) * 32 + 1 * (y 0).val = (y 0).val; omega
  | ⟨1, _⟩ => show win2_3.index t (1 : Fin 2) * 96 + 1 * (y 1).val = (y 1).val; omega

/-- The first bias row's block is the whole row. -/
theorem blk_b1 (c : Dev nD) (t : Fin cfg2.N) : (iblk2 V c 4 t : S1x32.Idx → EReal) = V c main_v24 := by
  obtain ⟨-, -, -, -, -, -, -, -, e0, e1, -⟩ := idx_facts t
  funext y
  show V c main_v24 (((cfg2.win 4).blk t).view.emb y) = V c main_v24 y
  refine congrArg (V c main_v24) (funext fun a => Fin.ext ?_)
  match a with
  | ⟨0, _⟩ => show win2_4.index t (0 : Fin 2) * 1 + 1 * (y 0).val = (y 0).val; omega
  | ⟨1, _⟩ => show win2_4.index t (1 : Fin 2) * 32 + 1 * (y 1).val = (y 1).val; omega

/-- The second layer's weights' block is the whole array. -/
theorem blk_W2 (c : Dev nD) (t : Fin cfg2.N) : (iblk2 V c 5 t : S32x32.Idx → EReal) = V c main_arg14 := by
  obtain ⟨-, -, -, -, -, -, -, -, -, -, e0, e1, -⟩ := idx_facts t
  funext y
  show V c main_arg14 (((cfg2.win 5).blk t).view.emb y) = V c main_arg14 y
  refine congrArg (V c main_arg14) (funext fun a => Fin.ext ?_)
  match a with
  | ⟨0, _⟩ => show win2_5.index t (0 : Fin 2) * 32 + 1 * (y 0).val = (y 0).val; omega
  | ⟨1, _⟩ => show win2_5.index t (1 : Fin 2) * 32 + 1 * (y 1).val = (y 1).val; omega

/-- The second bias row's block is the whole row. -/
theorem blk_b2 (c : Dev nD) (t : Fin cfg2.N) : (iblk2 V c 6 t : S1x32.Idx → EReal) = V c main_v25 := by
  obtain ⟨-, -, -, -, -, -, -, -, -, -, -, -, e0, e1, -⟩ := idx_facts t
  funext y
  show V c main_v25 (((cfg2.win 6).blk t).view.emb y) = V c main_v25 y
  refine congrArg (V c main_v25) (funext fun a => Fin.ext ?_)
  match a with
  | ⟨0, _⟩ => show win2_6.index t (0 : Fin 2) * 1 + 1 * (y 0).val = (y 0).val; omega
  | ⟨1, _⟩ => show win2_6.index t (1 : Fin 2) * 32 + 1 * (y 1).val = (y 1).val; omega

/-- What the output array ends holding: the edge perceptron of the input arrays, entry by entry. -/
def result (c : Dev nD) : S2000000x32.Idx → EReal := fun i =>
  edgeVal (co (φ := .f32) (V c main_arg2)) (co (φ := .f32) (V c main_v16)) (co (φ := .f32) (V c main_v23))
    (co (φ := .f32) (V c main_arg12)) (fun j => (V c main_v24 : FVec Ideal S1x32 .f32) (ix2 0 j))
    (co (φ := .f32) (V c main_arg14)) (fun j => (V c main_v25 : FVec Ideal S1x32 .f32) (ix2 0 j)) (i 0) (i 1)

/-- What point t writes back is block t of that array. -/
theorem flushed_eq (c : Dev nD) (t : Fin cfg2.N) :
    (dat2 (F := Ideal) V c).flushed 7 t = ((cfg2.win 7).blk t).view.read (Elt Ideal) (result V c) := by
  show (cfg2.win 7).cut (grid2.coords t) ((dat2 (F := Ideal) V c).after 7 t) = _
  rw [after2_7]
  unfold out2_7
  rw [View.canon_unit_zero hz]
  simp only [View.ld_unit_zero (S := S10000x32) hz, View.ld_unit_zero (S := S32x96) hz, View.ld_unit_zero (S := S32x32) hz,
    View.ld_unit_zero (S := S1x32) hz]
  funext j
  obtain ⟨p, q, rfl⟩ : ∃ (p : Fin 10000) (q : Fin 32), j = ix2 p q := ⟨j 0, j 1, eq_ix2 j⟩
  show k2_pay1 (iblk2 V c 0 t) (iblk2 V c 1 t) (iblk2 V c 2 t) (iblk2 V c 3 t) (iblk2 V c 4 t) (iblk2 V c 5 t) (iblk2 V c 6 t) (ix2 p q)
    = result V c (((cfg2.win 7).blk t).view.emb (ix2 p q))
  rw [emb_out]
  refine (pay_at (iblk2 V c 0 t) (iblk2 V c 1 t) (iblk2 V c 2 t) (iblk2 V c 3 t) (iblk2 V c 4 t) (iblk2 V c 5 t) (iblk2 V c 6 t) p q).trans ?_
  rw [blk_W1 V c t, blk_b1 V c t, blk_W2 V c t, blk_b2 V c t]
  show _ = edgeVal _ _ _ _ _ _ _ (rowOf t p) q
  refine edgeVal_row _ _ _ _ _ _ _ _ _ _ p (rowOf t p) (fun k => ?_) (fun k => ?_) (fun k => ?_) q
  · show V c main_arg2 (((cfg2.win 0).blk t).view.emb (ix2 p k)) = V c main_arg2 (ix2 (rowOf t p) k)
    rw [emb_e]
  · show V c main_v16 (((cfg2.win 1).blk t).view.emb (ix2 p k)) = V c main_v16 (ix2 (rowOf t p) k)
    rw [emb_vg]
  · show V c main_v23 (((cfg2.win 2).blk t).view.emb (ix2 p k)) = V c main_v23 (ix2 (rowOf t p) k)
    rw [emb_cg]

/-- An index of the output array is in point t's block iff each coordinate is in the block's range. -/
theorem mem_blk (t : Fin cfg2.N) (i : S2000000x32.Idx) :
    i ∈ ((cfg2.win 7).blk t).view.set ↔ ∀ a : Fin 2, win2_7.index t a * S10000x32.size a ≤ (i a).val
      ∧ (i a).val < win2_7.index t a * S10000x32.size a + S10000x32.size a := by
  show i ∈ ((View.whole main_v26).slice (win2_7.rect t)).set ↔ _
  rw [View.set_slice_whole, Rect.mem_set_unit]
  exact Iff.rfl

/-- Every entry of the output array is in the block of the point its row falls in. -/
theorem cover (i : S2000000x32.Idx) :
    ∃ t : Fin cfg2.N, (cfg2.win 7).flush t = true ∧ i ∈ ((cfg2.win 7).blk t).view.set := by
  have hi0 : (i 0).val < 2000000 := (i 0).isLt
  have hi1 : (i 1).val < 32 := (i 1).isLt
  have ht : (i 0).val / 10000 < 200 := by omega
  refine ⟨⟨(i 0).val / 10000, ht⟩, flush2_7 _, ?_⟩
  obtain ⟨-, -, -, -, -, -, -, -, -, -, -, -, -, -, e0, e1⟩ := idx_facts ⟨(i 0).val / 10000, ht⟩
  rw [mem_blk]
  intro a
  match a with
  | ⟨0, _⟩ =>
    show win2_7.index ⟨(i 0).val / 10000, ht⟩ (0 : Fin 2) * 10000 ≤ (i 0).val
      ∧ (i 0).val < win2_7.index ⟨(i 0).val / 10000, ht⟩ (0 : Fin 2) * 10000 + 10000
    rw [e0]; show (i 0).val / 10000 * 10000 ≤ _ ∧ _ < (i 0).val / 10000 * 10000 + 10000; omega
  | ⟨1, _⟩ =>
    show win2_7.index ⟨(i 0).val / 10000, ht⟩ (1 : Fin 2) * 32 ≤ (i 1).val
      ∧ (i 1).val < win2_7.index ⟨(i 0).val / 10000, ht⟩ (1 : Fin 2) * 32 + 32
    rw [e1]; omega

/-- The output array after the region: the edge perceptron of the region's input arrays. -/
theorem final (c : Dev nD) : (dat2 (F := Ideal) V c).arrAt 7 cfg2.N = result V c :=
  (dat2 (F := Ideal) V c).arrAt_eq_of_cover 7 (result V c) (fun t _ => flushed_eq V c t) (cover)

end Cert.KernelIdeal.EdgeC

end
-- ==== Proof.KernelValue.lean ====
/-
  The kernel program's result, read as a value.

  @main runs the two node perceptrons (one pallas_call each, after the two bias vectors of each are recast as rows),
  computes the start rows of two gathers from the index input, gathers one row of each node table per edge, recasts
  the edge perceptron's bias vectors as rows, and runs the edge perceptron's pallas_call. Here each call's input arrays
  are read back to the launch memory (no host operation and no call writes an argument; a recast row is its vector),
  and the three calls' values (NodeA, NodeB, EdgeC) are composed: the result array is the edge perceptron of the edge
  features and the two gathered node perceptrons, entry by entry.
-/
import proofs.«164511_j979252543696_1_alg».proof.Proof.Gen.KernelIdeal.Frame
import proofs.«164511_j979252543696_1_alg».proof.Proof.Dense
import proofs.«164511_j979252543696_1_alg».proof.Proof.NodeA
import proofs.«164511_j979252543696_1_alg».proof.Proof.NodeB
import proofs.«164511_j979252543696_1_alg».proof.Proof.EdgeC
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Dense

variable (m : (ℓ : Loc nD τ sig) → Buf (Elt Ideal) ℓ) (ρ : Dev nD → PrngReg)

/-- A buffer that no operation of a literal stretch of host operations writes keeps its contents across the stretch. -/
macro "unwritten" : tactic => `(tactic|
  (refine StableHlo.after_of_forall_not_mem _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))))

/-! ## The start rows of the two gathers -/

/-- The start rows of the first gather: row 0 of the index input, a negative entry raised by the table's height. -/
def rows0 (a : (⟨S2x2000000, .i32⟩ : BufTy).Contents (Elt Ideal)) : (⟨S2000000x1, .i32⟩ : BufTy).Contents (Elt Ideal) :=
  broadcastInDim S2000000x1 ![0] bcast_S2000000_S2000000x1_0 (select (cmpi .slt (shapeCast _ (extractStridedSlice S1x2000000 ![0, 0] a slices_S2x2000000_S1x2000000_0_0) shapeCasts_S1x2000000_S2000000) (broadcastInDim S2000000 ![] bcast_S_S2000000 (constantI S_ 32 0#32))) (addi (shapeCast _ (extractStridedSlice S1x2000000 ![0, 0] a slices_S2x2000000_S1x2000000_0_0) shapeCasts_S1x2000000_S2000000) (broadcastInDim S2000000 ![] bcast_S_S2000000 (constantI S_ 32 100000#32))) (shapeCast _ (extractStridedSlice S1x2000000 ![0, 0] a slices_S2x2000000_S1x2000000_0_0) shapeCasts_S1x2000000_S2000000))

/-- The start rows of the second gather: row 1 of the index input, wrapped the same way. -/
def rows1 (a : (⟨S2x2000000, .i32⟩ : BufTy).Contents (Elt Ideal)) : (⟨S2000000x1, .i32⟩ : BufTy).Contents (Elt Ideal) :=
  broadcastInDim S2000000x1 ![0] bcast_S2000000_S2000000x1_0 (select (cmpi .slt (shapeCast _ (extractStridedSlice S1x2000000 ![1, 0] a slices_S2x2000000_S1x2000000_1_0) shapeCasts_S1x2000000_S2000000) (broadcastInDim S2000000 ![] bcast_S_S2000000 (constantI S_ 32 0#32))) (addi (shapeCast _ (extractStridedSlice S1x2000000 ![1, 0] a slices_S2x2000000_S1x2000000_1_0) shapeCasts_S1x2000000_S2000000) (broadcastInDim S2000000 ![] bcast_S_S2000000 (constantI S_ 32 100000#32))) (shapeCast _ (extractStridedSlice S1x2000000 ![1, 0] a slices_S2x2000000_S1x2000000_1_0) shapeCasts_S1x2000000_S2000000))

/-! ## An argument's buffer at each boundary is its launch contents -/

section Keeps
variable (c : Dev nD)

/-- Across the first stretch of host operations (it writes the two recast rows only). -/
theorem W1_keep (b : Ref sig .tc) (h : ∀ op ∈ (hostOps0 : List (HloOp τ sig (Elt Ideal))), Proc.devRef .tc b ∉ op.writes) :
    W1 m ρ c (Proc.devRef .tc b) = m ((c : Thread nD τ).loc b) :=
  (StableHlo.after_of_forall_not_mem _ _ h).trans rfl

/-- Across the first pallas_call too, for a buffer that is none of its arrays. -/
theorem W2_keep (b : Ref sig .tc) (h0 : ∀ op ∈ (hostOps0 : List (HloOp τ sig (Elt Ideal))), Proc.devRef .tc b ∉ op.writes)
    (hs0 : ∀ w, Pipeline.arrRef spec0 w ≠ b) : W2 m ρ c (Proc.devRef .tc b) = m ((c : Thread nD τ).loc b) :=
  (W2_of_ne m ρ c b hs0).trans (W1_keep m ρ c b h0)

/-- Across the second stretch of host operations. -/
theorem W3_keep (b : Ref sig .tc) (h0 : ∀ op ∈ (hostOps0 : List (HloOp τ sig (Elt Ideal))), Proc.devRef .tc b ∉ op.writes)
    (hs0 : ∀ w, Pipeline.arrRef spec0 w ≠ b)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem _ _ h1).trans (W2_keep m ρ c b h0 hs0)

/-- Across the second pallas_call too. -/
theorem W4_keep (b : Ref sig .tc) (h0 : ∀ op ∈ (hostOps0 : List (HloOp τ sig (Elt Ideal))), Proc.devRef .tc b ∉ op.writes)
    (hs0 : ∀ w, Pipeline.arrRef spec0 w ≠ b)
    (h1 : ∀ op ∈ (hostOps1 : List (HloOp τ sig (Elt Ideal))), Proc.devRef .tc b ∉ op.writes)
    (hs1 : ∀ w, Pipeline.arrRef spec1 w ≠ b) : W4 m ρ c (Proc.devRef .tc b) = m ((c : Thread nD τ).loc b) :=
  (W4_of_ne m ρ c b hs1).trans (W3_keep m ρ c b h0 hs0 h1)

/-- Across the third stretch of host operations. -/
theorem W5_keep (b : Ref sig .tc) (h0 : ∀ op ∈ (hostOps0 : List (HloOp τ sig (Elt Ideal))), Proc.devRef .tc b ∉ op.writes)
    (hs0 : ∀ w, Pipeline.arrRef spec0 w ≠ b)
    (h1 : ∀ op ∈ (hostOps1 : List (HloOp τ sig (Elt Ideal))), Proc.devRef .tc b ∉ op.writes)
    (hs1 : ∀ w, Pipeline.arrRef spec1 w ≠ b)
    (h2 : ∀ op ∈ (hostOps2 : List (HloOp τ sig (Elt Ideal))), Proc.devRef .tc b ∉ op.writes) :
    W5 m ρ c (Proc.devRef .tc b) = m ((c : Thread nD τ).loc b) :=
  (StableHlo.after_of_forall_not_mem _ _ h2).trans (W4_keep m ρ c b h0 hs0 h1 hs1)

end Keeps

/-- No operation of a literal stretch writes the buffer: the hypothesis the lemmas above take, decided. -/
macro "no_write" : tactic => `(tactic|
  (refine List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the first node perceptron's call finds -/

section Region0
variable (c : Dev nD)

theorem V1_arg0 : V1 m ρ c main_arg0 = (m ((c : Thread nD τ).loc main_arg0)) := W1_keep m ρ c main_arg0 (by no_write)
theorem V1_arg4 : V1 m ρ c main_arg4 = (m ((c : Thread nD τ).loc main_arg4)) := W1_keep m ρ c main_arg4 (by no_write)
theorem V1_arg6 : V1 m ρ c main_arg6 = (m ((c : Thread nD τ).loc main_arg6)) := W1_keep m ρ c main_arg6 (by no_write)

/-- The first bias row is the first bias vector recast. -/
theorem V1_v0 : V1 m ρ c main_v0 = shapeCast S1x32 (m ((c : Thread nD τ).loc main_arg5)) shapeCasts_S32_S1x32 := by
  show StableHlo.after hostOps0 (W0 m ρ c) (Proc.devRef .tc main_v0) = _
  after_results
  rfl
/-- The second bias row is the second bias vector recast. -/
theorem V1_v1 : V1 m ρ c main_v1 = shapeCast S1x32 (m ((c : Thread nD τ).loc main_arg7)) shapeCasts_S32_S1x32 := by
  show StableHlo.after hostOps0 (W0 m ρ c) (Proc.devRef .tc main_v1) = _
  after_results
  rfl

/-- Read along its one row, that recast row is the bias vector. -/
theorem V1_b1 : (fun j : Fin 32 => (V1 m ρ c main_v0 : FVec Ideal S1x32 .f32) (ix2 0 j))
    = fun j => ((m ((c : Thread nD τ).loc main_arg5)) : FVec Ideal S32 .f32) (ix1 j) := by
  rw [V1_v0]
  exact funext fun j => rowCast_at _ _ j
/-- Read along its one row, that recast row is the bias vector. -/
theorem V1_b2 : (fun j : Fin 32 => (V1 m ρ c main_v1 : FVec Ideal S1x32 .f32) (ix2 0 j))
    = fun j => ((m ((c : Thread nD τ).loc main_arg7)) : FVec Ideal S32 .f32) (ix1 j) := by
  rw [V1_v1]
  exact funext fun j => rowCast_at _ _ j

/-- The first node table after its call: the node perceptron of the arguments. -/
theorem node0 : NodeA.result (V1 m ρ) c
    = nodeArr (co (φ := .f32) (m ((c : Thread nD τ).loc main_arg0))) (co (φ := .f32) (m ((c : Thread nD τ).loc main_arg4)))
        (fun j => ((m ((c : Thread nD τ).loc main_arg5)) : FVec Ideal S32 .f32) (ix1 j)) (co (φ := .f32) (m ((c : Thread nD τ).loc main_arg6)))
        (fun j => ((m ((c : Thread nD τ).loc main_arg7)) : FVec Ideal S32 .f32) (ix1 j)) := by
  unfold NodeA.result nodeArr
  rw [V1_arg0, V1_arg4, V1_arg6, V1_b1, V1_b2]

end Region0

/-! ## What the second node perceptron's call finds -/

section Region1
variable (c : Dev nD)

theorem V3_arg1 : V3 m ρ c main_arg1 = (m ((c : Thread nD τ).loc main_arg1)) := W3_keep m ρ c main_arg1 (by no_write) (by decide) (by no_write)
theorem V3_arg8 : V3 m ρ c main_arg8 = (m ((c : Thread nD τ).loc main_arg8)) := W3_keep m ρ c main_arg8 (by no_write) (by decide) (by no_write)
theorem V3_arg10 : V3 m ρ c main_arg10 = (m ((c : Thread nD τ).loc main_arg10)) := W3_keep m ρ c main_arg10 (by no_write) (by decide) (by no_write)

theorem V3_v3 : V3 m ρ c main_v3 = shapeCast S1x32 (m ((c : Thread nD τ).loc main_arg9)) shapeCasts_S32_S1x32 := by
  show StableHlo.after hostOps1 (W2 m ρ c) (Proc.devRef .tc main_v3) = _
  after_results
  rw [W2_keep m ρ c main_arg9 (by no_write) (by decide)]
  rfl
theorem V3_v4 : V3 m ρ c main_v4 = shapeCast S1x32 (m ((c : Thread nD τ).loc main_arg11)) shapeCasts_S32_S1x32 := by
  show StableHlo.after hostOps1 (W2 m ρ c) (Proc.devRef .tc main_v4) = _
  after_results
  rw [W2_keep m ρ c main_arg11 (by no_write) (by decide)]
  rfl

/-- Read along its one row, that recast row is the bias vector. -/
theorem V3_b1 : (fun j : Fin 32 => (V3 m ρ c main_v3 : FVec Ideal S1x32 .f32) (ix2 0 j))
    = fun j => ((m ((c : Thread nD τ).loc main_arg9)) : FVec Ideal S32 .f32) (ix1 j) := by
  rw [V3_v3]
  exact funext fun j => rowCast_at _ _ j
/-- Read along its one row, that recast row is the bias vector. -/
theorem V3_b2 : (fun j : Fin 32 => (V3 m ρ c main_v4 : FVec Ideal S1x32 .f32) (ix2 0 j))
    = fun j => ((m ((c : Thread nD τ).loc main_arg11)) : FVec Ideal S32 .f32) (ix1 j) := by
  rw [V3_v4]
  exact funext fun j => rowCast_at _ _ j

/-- The second node table after its call: the node perceptron of the arguments. -/
theorem node1 : NodeB.result (V3 m ρ) c
    = nodeArr (co (φ := .f32) (m ((c : Thread nD τ).loc main_arg1))) (co (φ := .f32) (m ((c : Thread nD τ).loc main_arg8)))
        (fun j => ((m ((c : Thread nD τ).loc main_arg9)) : FVec Ideal S32 .f32) (ix1 j)) (co (φ := .f32) (m ((c : Thread nD τ).loc main_arg10)))
        (fun j => ((m ((c : Thread nD τ).loc main_arg11)) : FVec Ideal S32 .f32) (ix1 j)) := by
  unfold NodeB.result nodeArr
  rw [V3_arg1, V3_arg8, V3_arg10, V3_b1, V3_b2]

end Region1

/-! ## What the edge perceptron's call finds -/

section Region2
variable (c : Dev nD)

theorem V5_arg2 : V5 m ρ c main_arg2 = (m ((c : Thread nD τ).loc main_arg2)) :=
  W5_keep m ρ c main_arg2 (by no_write) (by decide) (by no_write) (by decide) (by no_write)
theorem V5_arg12 : V5 m ρ c main_arg12 = (m ((c : Thread nD τ).loc main_arg12)) :=
  W5_keep m ρ c main_arg12 (by no_write) (by decide) (by no_write) (by decide) (by no_write)
theorem V5_arg14 : V5 m ρ c main_arg14 = (m ((c : Thread nD τ).loc main_arg14)) :=
  W5_keep m ρ c main_arg14 (by no_write) (by decide) (by no_write) (by decide) (by no_write)

theorem V5_v24 : V5 m ρ c main_v24 = shapeCast S1x32 (m ((c : Thread nD τ).loc main_arg13)) shapeCasts_S32_S1x32 := by
  show StableHlo.after hostOps2 (W4 m ρ c) (Proc.devRef .tc main_v24) = _
  after_results
  rw [W4_keep m ρ c main_arg13 (by no_write) (by decide) (by no_write) (by decide)]
  rfl
theorem V5_v25 : V5 m ρ c main_v25 = shapeCast S1x32 (m ((c : Thread nD τ).loc main_arg15)) shapeCasts_S32_S1x32 := by
  show StableHlo.after hostOps2 (W4 m ρ c) (Proc.devRef .tc main_v25) = _
  after_results
  rw [W4_keep m ρ c main_arg15 (by no_write) (by decide) (by no_write) (by decide)]
  rfl

/-- Read along its one row, that recast row is the bias vector. -/
theorem V5_b1 : (fun j : Fin 32 => (V5 m ρ c main_v24 : FVec Ideal S1x32 .f32) (ix2 0 j))
    = fun j => ((m ((c : Thread nD τ).loc main_arg13)) : FVec Ideal S32 .f32) (ix1 j) := by
  rw [V5_v24]
  exact funext fun j => rowCast_at _ _ j
/-- Read along its one row, that recast row is the bias vector. -/
theorem V5_b2 : (fun j : Fin 32 => (V5 m ρ c main_v25 : FVec Ideal S1x32 .f32) (ix2 0 j))
    = fun j => ((m ((c : Thread nD τ).loc main_arg15)) : FVec Ideal S32 .f32) (ix1 j) := by
  rw [V5_v25]
  exact funext fun j => rowCast_at _ _ j

/-- The first node table as the third stretch finds it: what its call left. -/
theorem W4_v2 : W4 m ρ c (Proc.devRef .tc main_v2) = NodeA.result (V1 m ρ) c :=
  calc W4 m ρ c (Proc.devRef .tc main_v2)
    _ = W3 m ρ c (Proc.devRef .tc main_v2) := W4_of_ne m ρ c main_v2 (by decide)
    _ = W2 m ρ c (Proc.devRef .tc main_v2) := StableHlo.after_of_forall_not_mem _ _ (by no_write)
    _ = (dat0 (F := Ideal) (V1 m ρ) c).arrAt 5 cfg0.N := W2_arr m ρ c 5
    _ = NodeA.result (V1 m ρ) c := NodeA.final (V1 m ρ) c

/-- The second node table as the third stretch finds it. -/
theorem W4_v5 : W4 m ρ c (Proc.devRef .tc main_v5) = NodeB.result (V3 m ρ) c :=
  (W4_arr m ρ c 5).trans (NodeB.final (V3 m ρ) c)

/-- The first gathered table. -/
theorem V5_v16 : V5 m ρ c main_v16
    = Host.gather gather_S100000x32_S2000000x1_S2000000x32_1_0_n_n_0_1_132 (NodeA.result (V1 m ρ) c) (rows0 (m ((c : Thread nD τ).loc main_arg3))) := by
  show StableHlo.after hostOps2 (W4 m ρ c) (Proc.devRef .tc main_v16) = _
  after_results
  rw [W4_v2, W4_keep m ρ c main_arg3 (by no_write) (by decide) (by no_write) (by decide)]
  rfl

/-- The second gathered table. -/
theorem V5_v23 : V5 m ρ c main_v23
    = Host.gather gather_S100000x32_S2000000x1_S2000000x32_1_0_n_n_0_1_132 (NodeB.result (V3 m ρ) c) (rows1 (m ((c : Thread nD τ).loc main_arg3))) := by
  show StableHlo.after hostOps2 (W4 m ρ c) (Proc.devRef .tc main_v23) = _
  after_results
  rw [W4_v5, W4_keep m ρ c main_arg3 (by no_write) (by decide) (by no_write) (by decide)]
  rfl

end Region2

/-! ## The result -/

/-- What the kernel program's result array holds, as one function of the argument arrays. -/
def value (c : Dev nD) : S2000000x32.Idx → EReal :=
  edgeArr (co (φ := .f32) (m ((c : Thread nD τ).loc main_arg2)))
    (co (φ := .f32) (Host.gather gather_S100000x32_S2000000x1_S2000000x32_1_0_n_n_0_1_132
      (nodeArr (co (φ := .f32) (m ((c : Thread nD τ).loc main_arg0))) (co (φ := .f32) (m ((c : Thread nD τ).loc main_arg4)))
        (fun j => ((m ((c : Thread nD τ).loc main_arg5)) : FVec Ideal S32 .f32) (ix1 j)) (co (φ := .f32) (m ((c : Thread nD τ).loc main_arg6)))
        (fun j => ((m ((c : Thread nD τ).loc main_arg7)) : FVec Ideal S32 .f32) (ix1 j)))
      (rows0 (m ((c : Thread nD τ).loc main_arg3)))))
    (co (φ := .f32) (Host.gather gather_S100000x32_S2000000x1_S2000000x32_1_0_n_n_0_1_132
      (nodeArr (co (φ := .f32) (m ((c : Thread nD τ).loc main_arg1))) (co (φ := .f32) (m ((c : Thread nD τ).loc main_arg8)))
        (fun j => ((m ((c : Thread nD τ).loc main_arg9)) : FVec Ideal S32 .f32) (ix1 j)) (co (φ := .f32) (m ((c : Thread nD τ).loc main_arg10)))
        (fun j => ((m ((c : Thread nD τ).loc main_arg11)) : FVec Ideal S32 .f32) (ix1 j)))
      (rows1 (m ((c : Thread nD τ).loc main_arg3)))))
    (co (φ := .f32) (m ((c : Thread nD τ).loc main_arg12))) (fun j => ((m ((c : Thread nD τ).loc main_arg13)) : FVec Ideal S32 .f32) (ix1 j))
    (co (φ := .f32) (m ((c : Thread nD τ).loc main_arg14))) (fun j => ((m ((c : Thread nD τ).loc main_arg15)) : FVec Ideal S32 .f32) (ix1 j))

/-- The last boundary's contents at the result array are that function. -/
theorem result_eq (c : Dev nD) : W6 m ρ c (Proc.devRef .tc main_v26) = value m c := by
  refine (W6_arr m ρ c 7).trans ?_
  rw [EdgeC.final]
  unfold EdgeC.result value edgeArr
  rw [V5_arg2, V5_v16, V5_v23, V5_arg12, V5_arg14, V5_b1, V5_b2, node0, node1]

end Cert.KernelIdeal.Whole

end
-- ==== Proof.RefSide.lean ====
/-
  The reference's result, read as a value.

  The reference computes the two node perceptrons over the whole node tables, gathers one row of each per edge at
  start rows it computes from the index input (a negative index wrapped once by the table's height), sets the edge
  features and the two gathered tables side by side, and applies the edge perceptron. Here its result term is cut
  into those pieces, and the two perceptrons are read entry by entry: they are Dense.lean's nodeVal and edgeVal of
  the arguments. The gather and the start rows are left as they are: the kernel's program applies the same ones.
-/
import proofs.«164511_j979252543696_1_alg».proof.Proof.Gen.ReferenceIdeal.Run
import proofs.«164511_j979252543696_1_alg».proof.Proof.Dense

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Dense

/-- The node perceptron as the reference writes it, over whole arrays. -/
def nodeTerm (x : FVec Ideal S100000x32 .f32) (W1 : FVec Ideal S32x32 .f32) (b1 : FVec Ideal S32 .f32) (W2 : FVec Ideal S32x32 .f32) (b2 : FVec Ideal S32 .f32) :
    FVec Ideal S100000x32 .f32 :=
  maximumf (addf (Host.dotGeneral dot_S100000x32_S32x32_S100000x32_1_0_0_1_n_n none (maximumf (addf (Host.dotGeneral dot_S100000x32_S32x32_S100000x32_1_0_0_1_n_n none x (transpose S32x32 [1, 0] W1 transposes_S32x32_S32x32_1_0)) (broadcastInDim S100000x32 ![0, 1] bcast_S1x32_S100000x32_0_1 (broadcastInDim S1x32 ![1] bcast_S32_S1x32_1 b1))) (broadcastInDim S100000x32 ![] bcast_S_S100000x32 (constant (F := Ideal) S_ .f32 0x00000000#32))) (transpose S32x32 [1, 0] W2 transposes_S32x32_S32x32_1_0)) (broadcastInDim S100000x32 ![0, 1] bcast_S1x32_S100000x32_0_1 (broadcastInDim S1x32 ![1] bcast_S32_S1x32_1 b2))) (broadcastInDim S100000x32 ![] bcast_S_S100000x32 (constant (F := Ideal) S_ .f32 0x00000000#32))

/-- The start rows of the first gather: row 0 of the index input, a negative entry raised by the table's height. -/
def rows0 (a : (⟨S2x2000000, .i32⟩ : BufTy).Contents (Elt Ideal)) : (⟨S2000000x1, .i32⟩ : BufTy).Contents (Elt Ideal) :=
  broadcastInDim S2000000x1 ![0] bcast_S2000000_S2000000x1_0 (select (cmpi .slt (shapeCast _ (extractStridedSlice S1x2000000 ![0, 0] a slices_S2x2000000_S1x2000000_0_0) shapeCasts_S1x2000000_S2000000) (broadcastInDim S2000000 ![] bcast_S_S2000000 (constantI S_ 32 0#32))) (addi (shapeCast _ (extractStridedSlice S1x2000000 ![0, 0] a slices_S2x2000000_S1x2000000_0_0) shapeCasts_S1x2000000_S2000000) (broadcastInDim S2000000 ![] bcast_S_S2000000 (constantI S_ 32 100000#32))) (shapeCast _ (extractStridedSlice S1x2000000 ![0, 0] a slices_S2x2000000_S1x2000000_0_0) shapeCasts_S1x2000000_S2000000))

/-- The start rows of the second gather: row 1 of the index input, wrapped the same way. -/
def rows1 (a : (⟨S2x2000000, .i32⟩ : BufTy).Contents (Elt Ideal)) : (⟨S2000000x1, .i32⟩ : BufTy).Contents (Elt Ideal) :=
  broadcastInDim S2000000x1 ![0] bcast_S2000000_S2000000x1_0 (select (cmpi .slt (shapeCast _ (extractStridedSlice S1x2000000 ![1, 0] a slices_S2x2000000_S1x2000000_1_0) shapeCasts_S1x2000000_S2000000) (broadcastInDim S2000000 ![] bcast_S_S2000000 (constantI S_ 32 0#32))) (addi (shapeCast _ (extractStridedSlice S1x2000000 ![1, 0] a slices_S2x2000000_S1x2000000_1_0) shapeCasts_S1x2000000_S2000000) (broadcastInDim S2000000 ![] bcast_S_S2000000 (constantI S_ 32 100000#32))) (shapeCast _ (extractStridedSlice S1x2000000 ![1, 0] a slices_S2x2000000_S1x2000000_1_0) shapeCasts_S1x2000000_S2000000))

/-- The edge perceptron as the reference writes it, over whole arrays. -/
def edgeTerm (e vg cg : FVec Ideal S2000000x32 .f32) (W1 : FVec Ideal S32x96 .f32) (b1 : FVec Ideal S32 .f32) (W2 : FVec Ideal S32x32 .f32) (b2 : FVec Ideal S32 .f32) :
    FVec Ideal S2000000x32 .f32 :=
  addf (Host.dotGeneral dot_S2000000x32_S32x32_S2000000x32_1_0_0_1_n_n none (maximumf (addf (Host.dotGeneral dot_S2000000x96_S96x32_S2000000x32_1_0_0_1_n_n none (concatenate S2000000x96 1 [⟨S2000000x32, e⟩, ⟨S2000000x32, vg⟩, ⟨S2000000x32, cg⟩] concatenates_S2000000x32_S2000000x32_S2000000x32_S2000000x96_d1) (transpose S96x32 [1, 0] W1 transposes_S32x96_S96x32_1_0)) (broadcastInDim S2000000x32 ![0, 1] bcast_S1x32_S2000000x32_0_1 (broadcastInDim S1x32 ![1] bcast_S32_S1x32_1 b1))) (broadcastInDim S2000000x32 ![] bcast_S_S2000000x32 (constant (F := Ideal) S_ .f32 0x00000000#32))) (transpose S32x32 [1, 0] W2 transposes_S32x32_S32x32_1_0)) (broadcastInDim S2000000x32 ![0, 1] bcast_S1x32_S2000000x32_0_1 (broadcastInDim S1x32 ![1] bcast_S32_S1x32_1 b2))

/-- The reference's result term is the edge perceptron of the edge features and the two gathered node tables. -/
theorem res_eq (m : (ℓ : Loc nD τ sig) → Buf (Elt Ideal) ℓ) (c : Dev nD) :
    res_main_v53 (F := Ideal) m c
      = edgeTerm (m ((c.tc : Thread nD τ).loc main_arg2))
          (Host.gather gather_S100000x32_S2000000x1_S2000000x32_1_0_n_n_0_1_132
            (nodeTerm (m ((c.tc : Thread nD τ).loc main_arg0)) (m ((c.tc : Thread nD τ).loc main_arg4))
              (m ((c.tc : Thread nD τ).loc main_arg5)) (m ((c.tc : Thread nD τ).loc main_arg6)) (m ((c.tc : Thread nD τ).loc main_arg7)))
            (rows0 (m ((c.tc : Thread nD τ).loc main_arg3))))
          (Host.gather gather_S100000x32_S2000000x1_S2000000x32_1_0_n_n_0_1_132
            (nodeTerm (m ((c.tc : Thread nD τ).loc main_arg1)) (m ((c.tc : Thread nD τ).loc main_arg8))
              (m ((c.tc : Thread nD τ).loc main_arg9)) (m ((c.tc : Thread nD τ).loc main_arg10)) (m ((c.tc : Thread nD τ).loc main_arg11)))
            (rows1 (m ((c.tc : Thread nD τ).loc main_arg3))))
          (m ((c.tc : Thread nD τ).loc main_arg12)) (m ((c.tc : Thread nD τ).loc main_arg13))
          (m ((c.tc : Thread nD τ).loc main_arg14)) (m ((c.tc : Thread nD τ).loc main_arg15)) := by
  unfold res_main_v53 edgeTerm nodeTerm rows0 rows1
  rfl

/-- One host layer over 100000 rows, at an entry. -/
theorem nodeLayer_at (x : FVec Ideal S100000x32 .f32) (W : FVec Ideal S32x32 .f32) (b : FVec Ideal S32 .f32) (r : Fin 100000) (c : Fin 32) :
    addf (Host.dotGeneral dot_S100000x32_S32x32_S100000x32_1_0_0_1_n_n none x (transpose S32x32 [1, 0] W transposes_S32x32_S32x32_1_0))
        (broadcastInDim S100000x32 ![0, 1] bcast_S1x32_S100000x32_0_1 (broadcastInDim S1x32 ![1] bcast_S32_S1x32_1 b)) (ix2 r c)
      = dense (co (φ := .f32) x) (co (φ := .f32) W) (fun q => b (ix1 q)) r c :=
  hostLayer_at dot_S100000x32_S32x32_S100000x32_1_0_0_1_n_n rfl rfl rfl rfl rfl rfl transposes_S32x32_S32x32_1_0
    bcast_S32_S1x32_1 bcast_S1x32_S100000x32_0_1 x W b r c

/-- The reference's node perceptron at an entry. -/
theorem nodeTerm_at (x : FVec Ideal S100000x32 .f32) (W1 : FVec Ideal S32x32 .f32) (b1 : FVec Ideal S32 .f32) (W2 : FVec Ideal S32x32 .f32) (b2 : FVec Ideal S32 .f32)
    (r : Fin 100000) (c : Fin 32) :
    nodeTerm x W1 b1 W2 b2 (ix2 r c)
      = nodeVal (co (φ := .f32) x) (co (φ := .f32) W1) (fun j => b1 (ix1 j)) (co (φ := .f32) W2) (fun j => b2 (ix1 j)) r c := by
  unfold nodeTerm
  rw [hostRelu_at, nodeLayer_at]
  unfold nodeVal dense
  refine congrArg relu (congrArg (· + _) (Finset.sum_congr rfl fun k _ => congrArg (· * _) ?_))
  show maximumf _ _ (ix2 r k) = _
  rw [hostRelu_at, nodeLayer_at]
  rfl

/-- The reference's node perceptron is the specification's array. -/
theorem nodeTerm_eq (x : FVec Ideal S100000x32 .f32) (W1 : FVec Ideal S32x32 .f32) (b1 : FVec Ideal S32 .f32) (W2 : FVec Ideal S32x32 .f32) (b2 : FVec Ideal S32 .f32) :
    nodeTerm x W1 b1 W2 b2
      = nodeArr (co (φ := .f32) x) (co (φ := .f32) W1) (fun j => b1 (ix1 j)) (co (φ := .f32) W2) (fun j => b2 (ix1 j)) := by
  funext i
  obtain ⟨r, c, rfl⟩ : ∃ (r : Fin 100000) (c : Fin 32), i = ix2 r c := ⟨i 0, i 1, eq_ix2 i⟩
  exact nodeTerm_at x W1 b1 W2 b2 r c

/-- The reference's edge perceptron at an entry. -/
theorem edgeTerm_at (e vg cg : FVec Ideal S2000000x32 .f32) (W1 : FVec Ideal S32x96 .f32) (b1 : FVec Ideal S32 .f32) (W2 : FVec Ideal S32x32 .f32) (b2 : FVec Ideal S32 .f32)
    (r : Fin 2000000) (c : Fin 32) :
    edgeTerm e vg cg W1 b1 W2 b2 (ix2 r c)
      = edgeVal (co (φ := .f32) e) (co (φ := .f32) vg) (co (φ := .f32) cg) (co (φ := .f32) W1) (fun j => b1 (ix1 j))
          (co (φ := .f32) W2) (fun j => b2 (ix1 j)) r c := by
  unfold edgeTerm
  rw [hostLayer_at dot_S2000000x32_S32x32_S2000000x32_1_0_0_1_n_n rfl rfl rfl rfl rfl rfl transposes_S32x32_S32x32_1_0
    bcast_S32_S1x32_1 bcast_S1x32_S2000000x32_0_1]
  unfold edgeVal dense
  refine congrArg (· + _) (Finset.sum_congr rfl fun k _ => congrArg (· * _) ?_)
  show maximumf _ _ (ix2 r k) = _
  rw [hostRelu_at, hostLayer_at dot_S2000000x96_S96x32_S2000000x32_1_0_0_1_n_n rfl rfl rfl rfl rfl rfl transposes_S32x96_S96x32_1_0
    bcast_S32_S1x32_1 bcast_S1x32_S2000000x32_0_1]
  unfold dense
  refine congrArg relu (congrArg (· + _) (Finset.sum_congr rfl fun l _ => congrArg (· * _) ?_))
  exact concat3_at concatenates_S2000000x32_S2000000x32_S2000000x32_S2000000x96_d1 e vg cg r l

/-- The reference's edge perceptron is the specification's array. -/
theorem edgeTerm_eq (e vg cg : FVec Ideal S2000000x32 .f32) (W1 : FVec Ideal S32x96 .f32) (b1 : FVec Ideal S32 .f32) (W2 : FVec Ideal S32x32 .f32) (b2 : FVec Ideal S32 .f32) :
    edgeTerm e vg cg W1 b1 W2 b2
      = edgeArr (co (φ := .f32) e) (co (φ := .f32) vg) (co (φ := .f32) cg) (co (φ := .f32) W1) (fun j => b1 (ix1 j))
          (co (φ := .f32) W2) (fun j => b2 (ix1 j)) := by
  funext i
  obtain ⟨r, c, rfl⟩ : ∃ (r : Fin 2000000) (c : Fin 32), i = ix2 r c := ⟨i 0, i 1, eq_ix2 i⟩
  exact edgeTerm_at e vg cg W1 b1 W2 b2 r c

end Cert.ReferenceIdeal.RefValue

end
-- ==== Proof.lean ====
/-
  The kernel program and the reference compute the same 2000000 × 32 array over the extended reals.

  Both apply a node perceptron (two rectified layers, x ↦ max(x·Wᵀ + b, 0) twice) to each of two node tables, gather one
  row of each table per edge at start rows computed from the index input (a negative index raised once by the table's
  height), set the edge features and the two gathered tables side by side and apply the edge perceptron (a rectified
  layer of 96 inputs, then a plain layer). The kernel program does the perceptrons in three pallas_calls, block of
  10000 rows by block, with inputs narrowed to a shorter float format before each product (the identity on the
  extended reals), and does the gathers on the host between the calls; the reference does everything on the host.
  At every entry both are the same sums: a layer is Σ_k x(r, k)·W(c, k) + b(c) on either side (Dense.lean), and the
  gathers and start rows are the same operations applied to equal arrays. No law beyond reading the operations at
  an entry is used, so the precondition is not opened.

  The kernel's run with its result named is ResultRun.run (KernelRun.lean); what that array holds is Whole.value
  (KernelValue.lean, over NodeA, NodeB, EdgeC); the reference's run is the generated one and its term is read in
  RefSide.lean. The three frames are the generated ones; the idealization rewrote no operation.
-/
import proofs.«164511_j979252543696_1_alg».proof.Defs
import proofs.«164511_j979252543696_1_alg».proof.Proof.Gen.Kernel
import proofs.«164511_j979252543696_1_alg».proof.Proof.Gen.Kernel.Skeleton
import proofs.«164511_j979252543696_1_alg».proof.Proof.Gen.Kernel.Launch
import proofs.«164511_j979252543696_1_alg».proof.Proof.Gen.Kernel.Points
import proofs.«164511_j979252543696_1_alg».proof.Proof.Gen.Kernel.Frame
import proofs.«164511_j979252543696_1_alg».proof.Proof.Gen.KernelIdeal
import proofs.«164511_j979252543696_1_alg».proof.Proof.Gen.KernelIdeal.Skeleton
import proofs.«164511_j979252543696_1_alg».proof.Proof.Gen.KernelIdeal.Launch
import proofs.«164511_j979252543696_1_alg».proof.Proof.Gen.KernelIdeal.Points
import proofs.«164511_j979252543696_1_alg».proof.Proof.Gen.KernelIdeal.Frame
import proofs.«164511_j979252543696_1_alg».proof.Proof.Gen.ReferenceIdeal
import proofs.«164511_j979252543696_1_alg».proof.Proof.Gen.ReferenceIdeal.Run
import proofs.«164511_j979252543696_1_alg».proof.Proof.Gen.Pre_finite_inputs
import proofs.«164511_j979252543696_1_alg».proof.Proof.KernelRun
import proofs.«164511_j979252543696_1_alg».proof.Proof.KernelValue
import proofs.«164511_j979252543696_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs write the start rows of the gathers with the same operations. -/
theorem rows0_eq : Cert.ReferenceIdeal.RefValue.rows0 = Cert.KernelIdeal.Whole.rows0 := rfl
theorem rows1_eq : Cert.ReferenceIdeal.RefValue.rows1 = Cert.KernelIdeal.Whole.rows1 := rfl
/-- and gather with the same dimension numbers. -/
theorem gather_eq : Cert.ReferenceIdeal.gather_S100000x32_S2000000x1_S2000000x32_1_0_n_n_0_1_132
    = Cert.KernelIdeal.gather_S100000x32_S2000000x1_S2000000x32_1_0_n_n_0_1_132 := rfl

/-- From memories agreeing on the arguments both programs end with the result array at Whole.value of the kernel
    program's arguments. -/
theorem algebraic : Cert.algebraic_KernelIdeal_ReferenceIdeal := by
  intro m ρ m' ρ' _ hagree
  refine ⟨fun c => Cert.KernelIdeal.Whole.value m c, ?_, ?_⟩
  · exact (θ_run Cert.KernelIdeal.defs _ _).mono
      (fun r h c => ⟨(h c).1.trans (Cert.KernelIdeal.Whole.result_eq m ρ c), (h c).2⟩)
      (Cert.KernelIdeal.ResultRun.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.RefValue.res_eq, Cert.ReferenceIdeal.RefValue.edgeTerm_eq,
      Cert.ReferenceIdeal.RefValue.nodeTerm_eq, Cert.ReferenceIdeal.RefValue.nodeTerm_eq,
      h0, h1, h2, h3, h4, h5, h6, h7, h8, h9, h10, h11, h12, h13, h14, h15, rows0_eq, rows1_eq, gather_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
